-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v6)) (v2 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_v8) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_v26) = v1 c
          ∧ r.2.mem ((c.tc : Thread Cert.ReferenceIdeal.nD Cert.ReferenceIdeal.τ).loc Cert.ReferenceIdeal.main_v8) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x3 : Shape := ⟨2, ![50000, 3]⟩
abbrev S50000x160 : Shape := ⟨2, ![50000, 160]⟩
abbrev S50000 : Shape := ⟨1, ![50000]⟩
abbrev S32x48 : Shape := ⟨2, ![32, 48]⟩
abbrev S48 : Shape := ⟨1, ![48]⟩
abbrev S131x256 : Shape := ⟨2, ![131, 256]⟩
abbrev S256 : Shape := ⟨1, ![256]⟩
abbrev S256x128 : Shape := ⟨2, ![256, 128]⟩
abbrev S128 : Shape := ⟨1, ![128]⟩
abbrev S128x32 : Shape := ⟨2, ![128, 32]⟩
abbrev S32 : Shape := ⟨1, ![32]⟩
abbrev S_ : Shape := ⟨0, ![]⟩

class Facts : Prop where
  bcast_S_S50000x3 : S_.BroadcastsInDim S50000x3 (![] : Fin 0 → Fin S50000x3.rank)
  reducesTo_S50000x3_S_d0_1 : S50000x3.ReducesTo [0, 1] S_
  h_S_ : 0 < S_.numel
  bcast_S_S50000x160 : S_.BroadcastsInDim S50000x160 (![] : Fin 0 → Fin S50000x160.rank)
  reducesTo_S50000x160_S_d0_1 : S50000x160.ReducesTo [0, 1] S_
  bcast_S_S32x48 : S_.BroadcastsInDim S32x48 (![] : Fin 0 → Fin S32x48.rank)
  reducesTo_S32x48_S_d0_1 : S32x48.ReducesTo [0, 1] S_
  bcast_S_S48 : S_.BroadcastsInDim S48 (![] : Fin 0 → Fin S48.rank)
  reducesTo_S48_S_d0 : S48.ReducesTo [0] S_
  bcast_S_S131x256 : S_.BroadcastsInDim S131x256 (![] : Fin 0 → Fin S131x256.rank)
  reducesTo_S131x256_S_d0_1 : S131x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_

variable [Facts]

def fn_part2 {F : FTy → Type} [FloatOps F] (main_arg8 : FVec F S128 .f32) (main_arg9 : FVec F S128x32 .f32) (main_arg10 : FVec F S32 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x32 .f32 := Host.absf main_arg9
  let main_cst_14 : FVec F S_ .f32 := constant S_ .f32 0x7F800000#32
  let main_v40 : FVec F S128x32 .f32 := broadcastInDim S128x32 ![] bcast_S_S128x32 main_cst_14
  let main_v41 : IVec S128x32 1 := cmpf .olt main_v39 main_v40
  let main_c_15 : IVec S_ 1 := constantI S_ 1 1#1
  let main_v42 : IVec S_ 1 := (fun x v => Host.reduce IntOp.andi x v reducesTo_S128x32_S_d0_1 h_S_) main_v41 main_c_15
  let main_v43 : IVec S_ 1 := andi main_v38 main_v42
  let main_v44 : FVec F S32 .f32 := Host.absf main_arg10
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  main_v48

def fn_part1 {F : FTy → Type} [FloatOps F] (main_arg5 : FVec F S131x256 .f32) (main_arg6 : FVec F S256 .f32) (main_arg7 : FVec F S256x128 .f32) (main_arg8 : FVec F S128 .f32) (main_arg9 : FVec F S128x32 .f32) (main_arg10 : FVec F S32 .f32) (main_v13 : IVec S_ 1) (main_v16 : IVec S48 1) : IVec S_ 1 :=
  let main_c_5 : IVec S_ 1 := constantI S_ 1 1#1
  let main_v17 : IVec S_ 1 := (fun x v => Host.reduce IntOp.andi x v reducesTo_S48_S_d0 h_S_) main_v16 main_c_5
  let main_v18 : IVec S_ 1 := andi main_v13 main_v17
  let main_v19 : FVec F S131x256 .f32 := Host.absf main_arg5
  let main_cst_6 : FVec F S_ .f32 := constant S_ .f32 0x7F800000#32
  let main_v20 : FVec F S131x256 .f32 := broadcastInDim S131x256 ![] bcast_S_S131x256 main_cst_6
  let main_v21 : IVec S131x256 1 := cmpf .olt main_v19 main_v20
  let main_c_7 : IVec S_ 1 := constantI S_ 1 1#1
  let main_v22 : IVec S_ 1 := (fun x v => Host.reduce IntOp.andi x v reducesTo_S131x256_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x128 .f32 := Host.absf main_arg7
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg8 main_arg9 main_arg10 main_v33

def fn {F : FTy → Type} [FloatOps F] (main_arg0 : FVec F S50000x3 .f32) (main_arg1 : FVec F S50000x160 .f32) (main_arg2 : IVec S50000 32) (main_arg3 : FVec F S32x48 .f32) (main_arg4 : FVec F S48 .f32) (main_arg5 : FVec F S131x256 .f32) (main_arg6 : FVec F S256 .f32) (main_arg7 : FVec F S256x128 .f32) (main_arg8 : FVec F S128 .f32) (main_arg9 : FVec F S128x32 .f32) (main_arg10 : FVec F S32 .f32) : IVec S_ 1 :=
  let main_v0 : FVec F S50000x3 .f32 := Host.absf main_arg0
  let main_cst : FVec F S_ .f32 := constant S_ .f32 0x7F800000#32
  let main_v1 : FVec F S50000x3 .f32 := broadcastInDim S50000x3 ![] bcast_S_S50000x3 main_cst
  let main_v2 : IVec S50000x3 1 := cmpf .olt main_v0 main_v1
  let main_c : IVec S_ 1 := constantI S_ 1 1#1
  let main_v3 : IVec S_ 1 := (fun x v => Host.reduce IntOp.andi x v reducesTo_S50000x3_S_d0_1 h_S_) main_v2 main_c
  let main_v4 : FVec F S50000x160 .f32 := Host.absf main_arg1
  let main_cst_0 : FVec F S_ .f32 := constant S_ .f32 0x7F800000#32
  let main_v5 : FVec F S50000x160 .f32 := broadcastInDim S50000x160 ![] bcast_S_S50000x160 main_cst_0
  let main_v6 : IVec S50000x160 1 := cmpf .olt main_v4 main_v5
  let main_c_1 : IVec S_ 1 := constantI S_ 1 1#1
  let main_v7 : IVec S_ 1 := (fun x v => Host.reduce IntOp.andi x v reducesTo_S50000x160_S_d0_1 h_S_) main_v6 main_c_1
  let main_v8 : IVec S_ 1 := andi main_v3 main_v7
  let main_v9 : FVec F S32x48 .f32 := Host.absf main_arg3
  let main_cst_2 : FVec F S_ .f32 := constant S_ .f32 0x7F800000#32
  let main_v10 : FVec F S32x48 .f32 := broadcastInDim S32x48 ![] bcast_S_S32x48 main_cst_2
  let main_v11 : IVec S32x48 1 := cmpf .olt main_v9 main_v10
  let main_c_3 : IVec S_ 1 := constantI S_ 1 1#1
  let main_v12 : IVec S_ 1 := (fun x v => Host.reduce IntOp.andi x v reducesTo_S32x48_S_d0_1 h_S_) main_v11 main_c_3
  let main_v13 : IVec S_ 1 := andi main_v8 main_v12
  let main_v14 : FVec F S48 .f32 := Host.absf main_arg4
  let main_cst_4 : FVec F S_ .f32 := constant S_ .f32 0x7F800000#32
  let main_v15 : FVec F S48 .f32 := broadcastInDim S48 ![] bcast_S_S48 main_cst_4
  let main_v16 : IVec S48 1 := cmpf .olt main_v14 main_v15
  fn_part1 (F := F) main_arg5 main_arg6 main_arg7 main_arg8 main_arg9 main_arg10 main_v13 main_v16
-- ==== Kernel.lean ====
abbrev S50000x3 : Shape := ⟨2, ![50000, 3]⟩
abbrev S50000x160 : Shape := ⟨2, ![50000, 160]⟩
abbrev S50000 : Shape := ⟨1, ![50000]⟩
abbrev S32x48 : Shape := ⟨2, ![32, 48]⟩
abbrev S48 : Shape := ⟨1, ![48]⟩
abbrev S131x256 : Shape := ⟨2, ![131, 256]⟩
abbrev S256 : Shape := ⟨1, ![256]⟩
abbrev S256x128 : Shape := ⟨2, ![256, 128]⟩
abbrev S128 : Shape := ⟨1, ![128]⟩
abbrev S128x32 : Shape := ⟨2, ![128, 32]⟩
abbrev S32 : Shape := ⟨1, ![32]⟩
abbrev S1x48 : Shape := ⟨2, ![1, 48]⟩
abbrev S1x256 : Shape := ⟨2, ![1, 256]⟩
abbrev S1x128 : Shape := ⟨2, ![1, 128]⟩
abbrev S1x32 : Shape := ⟨2, ![1, 32]⟩
abbrev S50000x16x3 : Shape := ⟨3, ![50000, 16, 3]⟩
abbrev S50000x16x32 : Shape := ⟨3, ![50000, 16, 32]⟩
abbrev S400x160 : Shape := ⟨2, ![400, 160]⟩
abbrev S400x3 : Shape := ⟨2, ![400, 3]⟩
abbrev S400x16x3 : Shape := ⟨3, ![400, 16, 3]⟩
abbrev S400x16x32 : Shape := ⟨3, ![400, 16, 32]⟩
abbrev S400x32 : Shape := ⟨2, ![400, 32]⟩
abbrev S400x128 : Shape := ⟨2, ![400, 128]⟩
abbrev S400x48 : Shape := ⟨2, ![400, 48]⟩
abbrev S3x256 : Shape := ⟨2, ![3, 256]⟩
abbrev S128x256 : Shape := ⟨2, ![128, 256]⟩
abbrev S400x256 : Shape := ⟨2, ![400, 256]⟩
abbrev S400x1x3 : Shape := ⟨3, ![400, 1, 3]⟩
abbrev S400x1x32 : Shape := ⟨3, ![400, 1, 32]⟩
abbrev S800000x3 : Shape := ⟨2, ![800000, 3]⟩
abbrev S800000x32 : Shape := ⟨2, ![800000, 32]⟩
abbrev S50000x16 : Shape := ⟨2, ![50000, 16]⟩
abbrev S800000 : Shape := ⟨1, ![800000]⟩

abbrev nBuf : Space → Nat
  | .hbm => 21
  | .vmem => 16
  | .smem => 0
  | _ => 0

abbrev bufTy : (tb : Table) → Fin (tcTables nBuf tb) → BufTy
  | .hbm, ⟨0, _⟩ => ⟨S50000x3, .f32⟩
  | .hbm, ⟨1, _⟩ => ⟨S50000x160, .f32⟩
  | .hbm, ⟨2, _⟩ => ⟨S50000, .i32⟩
  | .hbm, ⟨3, _⟩ => ⟨S32x48, .f32⟩
  | .hbm, ⟨4, _⟩ => ⟨S48, .f32⟩
  | .hbm, ⟨5, _⟩ => ⟨S131x256, .f32⟩
  | .hbm, ⟨6, _⟩ => ⟨S256, .f32⟩
  | .hbm, ⟨7, _⟩ => ⟨S256x128, .f32⟩
  | .hbm, ⟨8, _⟩ => ⟨S128, .f32⟩
  | .hbm, ⟨9, _⟩ => ⟨S128x32, .f32⟩
  | .hbm, ⟨10, _⟩ => ⟨S32, .f32⟩
  | .hbm, ⟨11, _⟩ => ⟨S1x48, .f32⟩
  | .hbm, ⟨12, _⟩ => ⟨S1x256, .f32⟩
  | .hbm, ⟨13, _⟩ => ⟨S1x128, .f32⟩
  | .hbm, ⟨14, _⟩ => ⟨S1x32, .f32⟩
  | .hbm, ⟨15, _⟩ => ⟨S50000x16x3, .f32⟩
  | .hbm, ⟨16, _⟩ => ⟨S50000x16x32, .f32⟩
  | .hbm, ⟨17, _⟩ => ⟨S800000x3, .f32⟩
  | .hbm, ⟨18, _⟩ => ⟨S800000x32, .f32⟩
  | .hbm, ⟨19, _⟩ => ⟨S50000x16, .i32⟩
  | .hbm, ⟨20, _⟩ => ⟨S800000, .i32⟩
  | .local _ .vmem, ⟨0, _⟩ => ⟨S400x160, .f32⟩
  | .local _ .vmem, ⟨1, _⟩ => ⟨S400x160, .f32⟩
  | .local _ .vmem, ⟨2, _⟩ => ⟨S400x3, .f32⟩
  | .local _ .vmem, ⟨3, _⟩ => ⟨S400x3, .f32⟩
  | .local _ .vmem, ⟨4, _⟩ => ⟨S32x48, .f32⟩
  | .local _ .vmem, ⟨5, _⟩ => ⟨S1x48, .f32⟩
  | .local _ .vmem, ⟨6, _⟩ => ⟨S131x256, .f32⟩
  | .local _ .vmem, ⟨7, _⟩ => ⟨S1x256, .f32⟩
  | .local _ .vmem, ⟨8, _⟩ => ⟨S256x128, .f32⟩
  | .local _ .vmem, ⟨9, _⟩ => ⟨S1x128, .f32⟩
  | .local _ .vmem, ⟨10, _⟩ => ⟨S128x32, .f32⟩
  | .local _ .vmem, ⟨11, _⟩ => ⟨S1x32, .f32⟩
  | .local _ .vmem, ⟨12, _⟩ => ⟨S400x16x3, .f32⟩
  | .local _ .vmem, ⟨13, _⟩ => ⟨S400x16x3, .f32⟩
  | .local _ .vmem, ⟨14, _⟩ => ⟨S400x16x32, .f32⟩
  | .local _ .vmem, ⟨15, _⟩ => ⟨S400x16x32, .f32⟩
  | _, _ => ⟨S50000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4_0 : Ref sig .tc := ⟨.hbm, 15, rfl⟩
abbrev main_v4_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S400x160 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S400x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x48 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x48 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S131x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x32 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S400x16x3 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S400x16x32 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  shapeCasts_S48_S1x48 : S48.ShapeCasts S1x48
  shapeCasts_S256_S1x256 : S256.ShapeCasts S1x256
  shapeCasts_S128_S1x128 : S128.ShapeCasts S1x128
  shapeCasts_S32_S1x32 : S32.ShapeCasts S1x32
  inb_S400x160_S400x160_0_0 : ∀ a, (![0, 0] : Fin 2 → Nat) a + S400x160.size a ≤ S400x160.size a
  h_S400x160 : 0 < S400x160.numel
  slices_S400x160_o0_0_S400x32 : S400x160.Slices ![0, 0] S400x32
  slices_S400x160_o0_32_S400x128 : S400x160.Slices ![0, 32] S400x128
  inb_S400x3_S400x3_0_0 : ∀ a, (![0, 0] : Fin 2 → Nat) a + S400x3.size a ≤ S400x3.size a
  h_S400x3 : 0 < S400x3.numel
  inb_S32x48_S32x48_0_0 : ∀ a, (![0, 0] : Fin 2 → Nat) a + S32x48.size a ≤ S32x48.size a
  h_S32x48 : 0 < S32x48.numel
  bitsLt_bf16_f32 : FTy.bits .bf16 < FTy.bits .f32
  inb_S1x48_S1x48_0_0 : ∀ a, (![0, 0] : Fin 2 → Nat) a + S1x48.size a ≤ S1x48.size a
  h_S1x48 : 0 < S1x48.numel
  shapeCasts_S1x48_S1x48 : S1x48.ShapeCasts S1x48
  broadcasts_S1x48_S400x48 : S1x48.Broadcasts S400x48
  inb_S131x256_S131x256_0_0 : ∀ a, (![0, 0] : Fin 2 → Nat) a + S131x256.size a ≤ S131x256.size a
  h_S131x256 : 0 < S131x256.numel
  slices_S131x256_o0_0_S3x256 : S131x256.Slices ![0, 0] S3x256
  slices_S131x256_o3_0_S128x256 : S131x256.Slices ![3, 0] S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S400x256 : S1x256.Broadcasts S400x256
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S128x32_S128x32_0_0 : ∀ a, (![0, 0] : Fin 2 → Nat) a + S128x32.size a ≤ S128x32.size a
  h_S128x32 : 0 < S128x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  slices_S400x48_o0_0_S400x3 : S400x48.Slices ![0, 0] S400x3
  broadcasts_S1x128_S400x128 : S1x128.Broadcasts S400x128
  broadcasts_S1x32_S400x32 : S1x32.Broadcasts S400x32
  shapeCasts_S400x3_S400x1x3 : S400x3.ShapeCasts S400x1x3
  inb_S400x16x3_S400x1x3_0_0_0 : ∀ a, (![0, 0, 0] : Fin 3 → Nat) a + S400x1x3.size a ≤ S400x16x3.size a
  h_S400x1x3 : 0 < S400x1x3.numel
  shapeCasts_S400x32_S400x1x32 : S400x32.ShapeCasts S400x1x32
  inb_S400x16x32_S400x1x32_0_0_0 : ∀ a, (![0, 0, 0] : Fin 3 → Nat) a + S400x1x32.size a ≤ S400x16x32.size a
  h_S400x1x32 : 0 < S400x1x32.numel
  slices_S400x48_o0_3_S400x3 : S400x48.Slices ![0, 3] S400x3
  inb_S400x16x3_S400x1x3_0_1_0 : ∀ a, (![0, 1, 0] : Fin 3 → Nat) a + S400x1x3.size a ≤ S400x16x3.size a
  inb_S400x16x32_S400x1x32_0_1_0 : ∀ a, (![0, 1, 0] : Fin 3 → Nat) a + S400x1x32.size a ≤ S400x16x32.size a
  slices_S400x48_o0_6_S400x3 : S400x48.Slices ![0, 6] S400x3
  inb_S400x16x3_S400x1x3_0_2_0 : ∀ a, (![0, 2, 0] : Fin 3 → Nat) a + S400x1x3.size a ≤ S400x16x3.size a
  inb_S400x16x32_S400x1x32_0_2_0 : ∀ a, (![0, 2, 0] : Fin 3 → Nat) a + S400x1x32.size a ≤ S400x16x32.size a
  slices_S400x48_o0_9_S400x3 : S400x48.Slices ![0, 9] S400x3
  inb_S400x16x3_S400x1x3_0_3_0 : ∀ a, (![0, 3, 0] : Fin 3 → Nat) a + S400x1x3.size a ≤ S400x16x3.size a
  inb_S400x16x32_S400x1x32_0_3_0 : ∀ a, (![0, 3, 0] : Fin 3 → Nat) a + S400x1x32.size a ≤ S400x16x32.size a
  slices_S400x48_o0_12_S400x3 : S400x48.Slices ![0, 12] S400x3
  inb_S400x16x3_S400x1x3_0_4_0 : ∀ a, (![0, 4, 0] : Fin 3 → Nat) a + S400x1x3.size a ≤ S400x16x3.size a
  inb_S400x16x32_S400x1x32_0_4_0 : ∀ a, (![0, 4, 0] : Fin 3 → Nat) a + S400x1x32.size a ≤ S400x16x32.size a
  slices_S400x48_o0_15_S400x3 : S400x48.Slices ![0, 15] S400x3
  inb_S400x16x3_S400x1x3_0_5_0 : ∀ a, (![0, 5, 0] : Fin 3 → Nat) a + S400x1x3.size a ≤ S400x16x3.size a
  inb_S400x16x32_S400x1x32_0_5_0 : ∀ a, (![0, 5, 0] : Fin 3 → Nat) a + S400x1x32.size a ≤ S400x16x32.size a
  slices_S400x48_o0_18_S400x3 : S400x48.Slices ![0, 18] S400x3
  inb_S400x16x3_S400x1x3_0_6_0 : ∀ a, (![0, 6, 0] : Fin 3 → Nat) a + S400x1x3.size a ≤ S400x16x3.size a
  inb_S400x16x32_S400x1x32_0_6_0 : ∀ a, (![0, 6, 0] : Fin 3 → Nat) a + S400x1x32.size a ≤ S400x16x32.size a
  slices_S400x48_o0_21_S400x3 : S400x48.Slices ![0, 21] S400x3
  inb_S400x16x3_S400x1x3_0_7_0 : ∀ a, (![0, 7, 0] : Fin 3 → Nat) a + S400x1x3.size a ≤ S400x16x3.size a
  inb_S400x16x32_S400x1x32_0_7_0 : ∀ a, (![0, 7, 0] : Fin 3 → Nat) a + S400x1x32.size a ≤ S400x16x32.size a
  slices_S400x48_o0_24_S400x3 : S400x48.Slices ![0, 24] S400x3
  inb_S400x16x3_S400x1x3_0_8_0 : ∀ a, (![0, 8, 0] : Fin 3 → Nat) a + S400x1x3.size a ≤ S400x16x3.size a
  inb_S400x16x32_S400x1x32_0_8_0 : ∀ a, (![0, 8, 0] : Fin 3 → Nat) a + S400x1x32.size a ≤ S400x16x32.size a
  slices_S400x48_o0_27_S400x3 : S400x48.Slices ![0, 27] S400x3
  inb_S400x16x3_S400x1x3_0_9_0 : ∀ a, (![0, 9, 0] : Fin 3 → Nat) a + S400x1x3.size a ≤ S400x16x3.size a
  inb_S400x16x32_S400x1x32_0_9_0 : ∀ a, (![0, 9, 0] : Fin 3 → Nat) a + S400x1x32.size a ≤ S400x16x32.size a
  slices_S400x48_o0_30_S400x3 : S400x48.Slices ![0, 30] S400x3
  inb_S400x16x3_S400x1x3_0_10_0 : ∀ a, (![0, 10, 0] : Fin 3 → Nat) a + S400x1x3.size a ≤ S400x16x3.size a
  inb_S400x16x32_S400x1x32_0_10_0 : ∀ a, (![0, 10, 0] : Fin 3 → Nat) a + S400x1x32.size a ≤ S400x16x32.size a
  slices_S400x48_o0_33_S400x3 : S400x48.Slices ![0, 33] S400x3
  inb_S400x16x3_S400x1x3_0_11_0 : ∀ a, (![0, 11, 0] : Fin 3 → Nat) a + S400x1x3.size a ≤ S400x16x3.size a
  inb_S400x16x32_S400x1x32_0_11_0 : ∀ a, (![0, 11, 0] : Fin 3 → Nat) a + S400x1x32.size a ≤ S400x16x32.size a
  slices_S400x48_o0_36_S400x3 : S400x48.Slices ![0, 36] S400x3
  inb_S400x16x3_S400x1x3_0_12_0 : ∀ a, (![0, 12, 0] : Fin 3 → Nat) a + S400x1x3.size a ≤ S400x16x3.size a
  inb_S400x16x32_S400x1x32_0_12_0 : ∀ a, (![0, 12, 0] : Fin 3 → Nat) a + S400x1x32.size a ≤ S400x16x32.size a
  slices_S400x48_o0_39_S400x3 : S400x48.Slices ![0, 39] S400x3
  inb_S400x16x3_S400x1x3_0_13_0 : ∀ a, (![0, 13, 0] : Fin 3 → Nat) a + S400x1x3.size a ≤ S400x16x3.size a
  inb_S400x16x32_S400x1x32_0_13_0 : ∀ a, (![0, 13, 0] : Fin 3 → Nat) a + S400x1x32.size a ≤ S400x16x32.size a
  slices_S400x48_o0_42_S400x3 : S400x48.Slices ![0, 42] S400x3
  inb_S400x16x3_S400x1x3_0_14_0 : ∀ a, (![0, 14, 0] : Fin 3 → Nat) a + S400x1x3.size a ≤ S400x16x3.size a
  inb_S400x16x32_S400x1x32_0_14_0 : ∀ a, (![0, 14, 0] : Fin 3 → Nat) a + S400x1x32.size a ≤ S400x16x32.size a
  slices_S400x48_o0_45_S400x3 : S400x48.Slices ![0, 45] S400x3
  inb_S400x16x3_S400x1x3_0_15_0 : ∀ a, (![0, 15, 0] : Fin 3 → Nat) a + S400x1x3.size a ≤ S400x16x3.size a
  inb_S400x16x32_S400x1x32_0_15_0 : ∀ a, (![0, 15, 0] : Fin 3 → Nat) a + S400x1x32.size a ≤ S400x16x32.size a
  shapeCasts_S50000x16x3_S800000x3 : S50000x16x3.ShapeCasts S800000x3
  shapeCasts_S50000x16x32_S800000x32 : S50000x16x32.ShapeCasts S800000x32
  bcast_S50000_S50000x16_0 : S50000.BroadcastsInDim S50000x16 (![0] : Fin 1 → Fin S50000x16.rank)
  shapeCasts_S50000x16_S800000 : S50000x16.ShapeCasts S800000
  dot_S400x32_S32x48_S400x48_1_0_0_1_n_n_wf : DotDims.WF S400x32 S32x48 S400x48 [1] [0] [0] [1] [] []
  dot_S400x128_S128x256_S400x256_1_0_0_1_n_n_wf : DotDims.WF S400x128 S128x256 S400x256 [1] [0] [0] [1] [] []
  dot_S400x3_S3x256_S400x256_1_0_0_1_n_n_wf : DotDims.WF S400x3 S3x256 S400x256 [1] [0] [0] [1] [] []
  dot_S400x256_S256x128_S400x128_1_0_0_1_n_n_wf : DotDims.WF S400x256 S256x128 S400x128 [1] [0] [0] [1] [] []
  dot_S400x128_S128x32_S400x32_1_0_0_1_n_n_wf : DotDims.WF S400x128 S128x32 S400x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x160.size a ≤ S50000x160.size a
  hwx0_0 : ∀ i : grid0.Coords, EltTy.bits .f32 = 32 ∨ (Rect.block (s := S50000x160) S400x160.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S400x3.size a ≤ S50000x3.size a
  hwx0_1 : ∀ i : grid0.Coords, EltTy.bits .f32 = 32 ∨ (Rect.block (s := S50000x3) S400x3.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x48.size a ≤ S32x48.size a
  hwx0_2 : ∀ i : grid0.Coords, EltTy.bits .f32 = 32 ∨ (Rect.block (s := S32x48) S32x48.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x48.size a ≤ S1x48.size a
  hwx0_3 : ∀ i : grid0.Coords, EltTy.bits .f32 = 32 ∨ (Rect.block (s := S1x48) S1x48.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S131x256.size a ≤ S131x256.size a
  hwx0_4 : ∀ i : grid0.Coords, EltTy.bits .f32 = 32 ∨ (Rect.block (s := S131x256) S131x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x128.size a ≤ S256x128.size a
  hwx0_6 : ∀ i : grid0.Coords, EltTy.bits .f32 = 32 ∨ (Rect.block (s := S256x128) S256x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x32.size a ≤ S128x32.size a
  hwx0_8 : ∀ i : grid0.Coords, EltTy.bits .f32 = 32 ∨ (Rect.block (s := S128x32) S128x32.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x32.size a ≤ S1x32.size a
  hwx0_9 : ∀ i : grid0.Coords, EltTy.bits .f32 = 32 ∨ (Rect.block (s := S1x32) S1x32.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S400x16x3.size a ≤ S50000x16x3.size a
  hwx0_10 : ∀ i : grid0.Coords, EltTy.bits .f32 = 32 ∨ (Rect.block (s := S50000x16x3) S400x16x3.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S400x16x32.size a ≤ S50000x16x32.size a
  hwx0_11 : ∀ i : grid0.Coords, EltTy.bits .f32 = 32 ∨ (Rect.block (s := S50000x16x32) S400x16x32.size (cc0_transform_11 i) (hinb0_11 i)).WholeWords (EltTy.packing .f32)

variable [Facts₀]

def dot_S400x32_S32x48_S400x48_1_0_0_1_n_n : DotDims S400x32 S32x48 S400x48 where
  lhsContracting := [1]
  rhsContracting := [0]
  lhsNonContracting := [0]
  rhsNonContracting := [1]
  lhsBatch := []
  rhsBatch := []
  wf := dot_S400x32_S32x48_S400x48_1_0_0_1_n_n_wf
def dot_S400x128_S128x256_S400x256_1_0_0_1_n_n : DotDims S400x128 S128x256 S400x256 where
  lhsContracting := [1]
  rhsContracting := [0]
  lhsNonContracting := [0]
  rhsNonContracting := [1]
  lhsBatch := []
  rhsBatch := []
  wf := dot_S400x128_S128x256_S400x256_1_0_0_1_n_n_wf
def dot_S400x3_S3x256_S400x256_1_0_0_1_n_n : DotDims S400x3 S3x256 S400x256 where
  lhsContracting := [1]
  rhsContracting := [0]
  lhsNonContracting := [0]
  rhsNonContracting := [1]
  lhsBatch := []
  rhsBatch := []
  wf := dot_S400x3_S3x256_S400x256_1_0_0_1_n_n_wf
def dot_S400x256_S256x128_S400x128_1_0_0_1_n_n : DotDims S400x256 S256x128 S400x128 where
  lhsContracting := [1]
  rhsContracting := [0]
  lhsNonContracting := [0]
  rhsNonContracting := [1]
  lhsBatch := []
  rhsBatch := []
  wf := dot_S400x256_S256x128_S400x128_1_0_0_1_n_n_wf
def dot_S400x128_S128x32_S400x32_1_0_0_1_n_n : DotDims S400x128 S128x32 S400x32 where
  lhsContracting := [1]
  rhsContracting := [0]
  lhsNonContracting := [0]
  rhsNonContracting := [1]
  lhsBatch := []
  rhsBatch := []
  wf := dot_S400x128_S128x32_S400x32_1_0_0_1_n_n_wf

abbrev win0_0 : Pipeline.Window sig grid0 :=
  Pipeline.Window.ofSpec (Memref.whole main_arg1) S400x160.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S400x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S32x48.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x48.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S131x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S256x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg9) S128x32.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v3) S1x32.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v4_0) S400x16x3.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v4_1) S400x16x32.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S50000x3 : Shape := ⟨2, ![50000, 3]⟩
abbrev S50000x160 : Shape := ⟨2, ![50000, 160]⟩
abbrev S50000 : Shape := ⟨1, ![50000]⟩
abbrev S32x48 : Shape := ⟨2, ![32, 48]⟩
abbrev S48 : Shape := ⟨1, ![48]⟩
abbrev S131x256 : Shape := ⟨2, ![131, 256]⟩
abbrev S256 : Shape := ⟨1, ![256]⟩
abbrev S256x128 : Shape := ⟨2, ![256, 128]⟩
abbrev S128 : Shape := ⟨1, ![128]⟩
abbrev S128x32 : Shape := ⟨2, ![128, 32]⟩
abbrev S32 : Shape := ⟨1, ![32]⟩
abbrev S50000x32 : Shape := ⟨2, ![50000, 32]⟩
abbrev S50000x128 : Shape := ⟨2, ![50000, 128]⟩
abbrev S50000x48 : Shape := ⟨2, ![50000, 48]⟩
abbrev S1x48 : Shape := ⟨2, ![1, 48]⟩
abbrev S800000x3 : Shape := ⟨2, ![800000, 3]⟩
abbrev S50000x16 : Shape := ⟨2, ![50000, 16]⟩
abbrev S800000 : Shape := ⟨1, ![800000]⟩
abbrev S50000x16x128 : Shape := ⟨3, ![50000, 16, 128]⟩
abbrev S800000x128 : Shape := ⟨2, ![800000, 128]⟩
abbrev S800000x131 : Shape := ⟨2, ![800000, 131]⟩
abbrev S800000x256 : Shape := ⟨2, ![800000, 256]⟩
abbrev S1x256 : Shape := ⟨2, ![1, 256]⟩
abbrev S_ : Shape := ⟨0, ![]⟩
abbrev S1x128 : Shape := ⟨2, ![1, 128]⟩
abbrev S800000x32 : Shape := ⟨2, ![800000, 32]⟩
abbrev S1x32 : Shape := ⟨2, ![1, 32]⟩
abbrev S50000x16x3 : Shape := ⟨3, ![50000, 16, 3]⟩

abbrev nBuf : Space → Nat
  | .hbm => 50
  | .vmem => 0
  | .smem => 0
  | _ => 0

abbrev bufTy : (tb : Table) → Fin (tcTables nBuf tb) → BufTy
  | .hbm, ⟨0, _⟩ => ⟨S50000x3, .f32⟩
  | .hbm, ⟨1, _⟩ => ⟨S50000x160, .f32⟩
  | .hbm, ⟨2, _⟩ => ⟨S50000, .i32⟩
  | .hbm, ⟨3, _⟩ => ⟨S32x48, .f32⟩
  | .hbm, ⟨4, _⟩ => ⟨S48, .f32⟩
  | .hbm, ⟨5, _⟩ => ⟨S131x256, .f32⟩
  | .hbm, ⟨6, _⟩ => ⟨S256, .f32⟩
  | .hbm, ⟨7, _⟩ => ⟨S256x128, .f32⟩
  | .hbm, ⟨8, _⟩ => ⟨S128, .f32⟩
  | .hbm, ⟨9, _⟩ => ⟨S128x32, .f32⟩
  | .hbm, ⟨10, _⟩ => ⟨S32, .f32⟩
  | .hbm, ⟨11, _⟩ => ⟨S50000x32, .f32⟩
  | .hbm, ⟨12, _⟩ => ⟨S50000x128, .f32⟩
  | .hbm, ⟨13, _⟩ => ⟨S50000x48, .f32⟩
  | .hbm, ⟨14, _⟩ => ⟨S1x48, .f32⟩
  | .hbm, ⟨15, _⟩ => ⟨S50000x48, .f32⟩
  | .hbm, ⟨16, _⟩ => ⟨S50000x48, .f32⟩
  | .hbm, ⟨17, _⟩ => ⟨S800000x3, .f32⟩
  | .hbm, ⟨18, _⟩ => ⟨S50000x16, .i32⟩
  | .hbm, ⟨19, _⟩ => ⟨S800000, .i32⟩
  | .hbm, ⟨20, _⟩ => ⟨S50000x16x128, .f32⟩
  | .hbm, ⟨21, _⟩ => ⟨S800000x128, .f32⟩
  | .hbm, ⟨22, _⟩ => ⟨S800000x131, .f32⟩
  | .hbm, ⟨23, _⟩ => ⟨S800000x256, .f32⟩
  | .hbm, ⟨24, _⟩ => ⟨S1x256, .f32⟩
  | .hbm, ⟨25, _⟩ => ⟨S800000x256, .f32⟩
  | .hbm, ⟨26, _⟩ => ⟨S800000x256, .f32⟩
  | .hbm, ⟨27, _⟩ => ⟨S_, .f32⟩
  | .hbm, ⟨28, _⟩ => ⟨S800000x256, .f32⟩
  | .hbm, ⟨29, _⟩ => ⟨S800000x256, .f32⟩
  | .hbm, ⟨30, _⟩ => ⟨S800000x128, .f32⟩
  | .hbm, ⟨31, _⟩ => ⟨S1x128, .f32⟩
  | .hbm, ⟨32, _⟩ => ⟨S800000x128, .f32⟩
  | .hbm, ⟨33, _⟩ => ⟨S800000x128, .f32⟩
  | .hbm, ⟨34, _⟩ => ⟨S_, .f32⟩
  | .hbm, ⟨35, _⟩ => ⟨S800000x128, .f32⟩
  | .hbm, ⟨36, _⟩ => ⟨S800000x128, .f32⟩
  | .hbm, ⟨37, _⟩ => ⟨S800000x32, .f32⟩
  | .hbm, ⟨38, _⟩ => ⟨S1x32, .f32⟩
  | .hbm, ⟨39, _⟩ => ⟨S800000x32, .f32⟩
  | .hbm, ⟨40, _⟩ => ⟨S800000x32, .f32⟩
  | .hbm, ⟨41, _⟩ => ⟨S_, .f32⟩
  | .hbm, ⟨42, _⟩ => ⟨S800000x32, .f32⟩
  | .hbm, ⟨43, _⟩ => ⟨S800000x32, .f32⟩
  | .hbm, ⟨44, _⟩ => ⟨S50000x16x3, .f32⟩
  | .hbm, ⟨45, _⟩ => ⟨S800000x3, .f32⟩
  | .hbm, ⟨46, _⟩ => ⟨S_, .f32⟩
  | .hbm, ⟨47, _⟩ => ⟨S800000x3, .f32⟩
  | .hbm, ⟨48, _⟩ => ⟨S800000x3, .f32⟩
  | .hbm, ⟨49, _⟩ => ⟨S800000x3, .f32⟩
  | _, _ => ⟨S50000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_call0_cst : Ref sig .tc := ⟨.hbm, 27, rfl⟩
abbrev main_call0_v0 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_call1_cst : Ref sig .tc := ⟨.hbm, 34, rfl⟩
abbrev main_call1_v0 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_call2_cst : Ref sig .tc := ⟨.hbm, 41, rfl⟩
abbrev main_call2_v0 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩

abbrev nD : Nat := 1
abbrev τ : Topo := Topo.v7x

variable {F : FTy → Type} [FloatOps F]

class Facts₀ : Prop where
  slices_S50000x160_S50000x32_0_0 : S50000x160.Slices ![0, 0] S50000x32
  slices_S50000x160_S50000x128_0_32 : S50000x160.Slices ![0, 32] S50000x128
  bcast_S48_S1x48_1 : S48.BroadcastsInDim S1x48 (![1] : Fin 1 → Fin S1x48.rank)
  bcast_S1x48_S50000x48_0_1 : S1x48.BroadcastsInDim S50000x48 (![0, 1] : Fin 2 → Fin S50000x48.rank)
  shapeCasts_S50000x48_S800000x3 : S50000x48.ShapeCasts S800000x3
  bcast_S50000_S50000x16_0 : S50000.BroadcastsInDim S50000x16 (![0] : Fin 1 → Fin S50000x16.rank)
  shapeCasts_S50000x16_S800000 : S50000x16.ShapeCasts S800000
  bcast_S50000x128_S50000x16x128_0_2 : S50000x128.BroadcastsInDim S50000x16x128 (![0, 2] : Fin 2 → Fin S50000x16x128.rank)
  shapeCasts_S50000x16x128_S800000x128 : S50000x16x128.ShapeCasts S800000x128
  concatenates_S800000x3_S800000x128_S800000x131_d1 : Shape.Concatenates [S800000x3, S800000x128] S800000x131 1
  bcast_S256_S1x256_1 : S256.BroadcastsInDim S1x256 (![1] : Fin 1 → Fin S1x256.rank)
  bcast_S1x256_S800000x256_0_1 : S1x256.BroadcastsInDim S800000x256 (![0, 1] : Fin 2 → Fin S800000x256.rank)
  bcast_S_S800000x256 : S_.BroadcastsInDim S800000x256 (![] : Fin 0 → Fin S800000x256.rank)
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S32_S1x32_1 : S32.BroadcastsInDim S1x32 (![1] : Fin 1 → Fin S1x32.rank)
  bcast_S1x32_S800000x32_0_1 : S1x32.BroadcastsInDim S800000x32 (![0, 1] : Fin 2 → Fin S800000x32.rank)
  bcast_S_S800000x32 : S_.BroadcastsInDim S800000x32 (![] : Fin 0 → Fin S800000x32.rank)
  bcast_S50000x3_S50000x16x3_0_2 : S50000x3.BroadcastsInDim S50000x16x3 (![0, 2] : Fin 2 → Fin S50000x16x3.rank)
  shapeCasts_S50000x16x3_S800000x3 : S50000x16x3.ShapeCasts S800000x3
  bcast_S_S800000x3 : S_.BroadcastsInDim S800000x3 (![] : Fin 0 → Fin S800000x3.rank)
  dot_S50000x32_S32x48_S50000x48_1_0_0_1_n_n_wf : DotDims.WF S50000x32 S32x48 S50000x48 [1] [0] [0] [1] [] []
  dot_S800000x131_S131x256_S800000x256_1_0_0_1_n_n_wf : DotDims.WF S800000x131 S131x256 S800000x256 [1] [0] [0] [1] [] []
  dot_S800000x256_S256x128_S800000x128_1_0_0_1_n_n_wf : DotDims.WF S800000x256 S256x128 S800000x128 [1] [0] [0] [1] [] []
  dot_S800000x128_S128x32_S800000x32_1_0_0_1_n_n_wf : DotDims.WF S800000x128 S128x32 S800000x32 [1] [0] [0] [1] [] []

variable [Facts₀]

def dot_S50000x32_S32x48_S50000x48_1_0_0_1_n_n : DotDims S50000x32 S32x48 S50000x48 where
  lhsContracting := [1]
  rhsContracting := [0]
  lhsNonContracting := [0]
  rhsNonContracting := [1]
  lhsBatch := []
  rhsBatch := []
  wf := dot_S50000x32_S32x48_S50000x48_1_0_0_1_n_n_wf
def dot_S800000x131_S131x256_S800000x256_1_0_0_1_n_n : DotDims S800000x131 S131x256 S800000x256 where
  lhsContracting := [1]
  rhsContracting := [0]
  lhsNonContracting := [0]
  rhsNonContracting := [1]
  lhsBatch := []
  rhsBatch := []
  wf := dot_S800000x131_S131x256_S800000x256_1_0_0_1_n_n_wf
def dot_S800000x256_S256x128_S800000x128_1_0_0_1_n_n : DotDims S800000x256 S256x128 S800000x128 where
  lhsContracting := [1]
  rhsContracting := [0]
  lhsNonContracting := [0]
  rhsNonContracting := [1]
  lhsBatch := []
  rhsBatch := []
  wf := dot_S800000x256_S256x128_S800000x128_1_0_0_1_n_n_wf
def dot_S800000x128_S128x32_S800000x32_1_0_0_1_n_n : DotDims S800000x128 S128x32 S800000x32 where
  lhsContracting := [1]
  rhsContracting := [0]
  lhsNonContracting := [0]
  rhsNonContracting := [1]
  lhsBatch := []
  rhsBatch := []
  wf := dot_S800000x128_S128x32_S800000x32_1_0_0_1_n_n_wf

class Facts : Prop extends Facts₀ where

variable [Facts]
-- ==== Proof.Spec.lean ====
/-
  The neighbourhood decoder, one row at a time, on the extended reals.

  A row of the feature array is a function f on Fin 160. Its first 32 entries drive a linear offset decoder: the
  row's 48 relative offsets are rel q = (sum over a of f a * Wn a q) + bn q, read as sixteen triples, neighbour j
  owning offsets 3j, 3j+1, 3j+2. Neighbour j's output point is the row's anchor point plus a quarter of its triple.
  Its output features are a three-layer perceptron (each layer: times the weights, plus the bias, clamped below at
  zero) of the 131-vector made of its triple followed by the row's last 128 features.

  The first layer is stated twice. lin1Cat is the sum over all 131 columns of the concatenated vector, then the bias.
  lin1Split adds the bias to the 128-column part, which is the same for all sixteen neighbours, and then adds the
  three-column part. The two are the same 132 summands of a commutative monoid in another order
  (lin1Cat_eq_lin1Split), so they agree on every extended real: nothing here needs an input to be finite.

  The whole-array functions outPoints and outFeat read row i / 16 and neighbour i % 16 at output row i: the sixteen
  neighbours of a row are consecutive output rows.
-/
import Idealize.ShloMosaic.PureOps.Ideal
import Idealize.ShloMosaic.Lib.ValueIdx
import Mathlib.Algebra.BigOperators.Fin

noncomputable section

namespace Cert.Decoder

open Idealize.ShloMosaic Idealize.ShloMosaic.ValueIdx

/-! ## Columns -/

/-- Column a of the first 32 feature columns. -/
def lo (a : Fin 32) : Fin 160 := ⟨a.val, by omega⟩
/-- Column a of the last 128 feature columns. -/
def hi (a : Fin 128) : Fin 160 := ⟨32 + a.val, by omega⟩
/-- Offset k of neighbour j's triple among the 48 offsets. -/
def nb (j : Fin 16) (k : Fin 3) : Fin 48 := ⟨3 * j.val + k.val, by omega⟩
/-- Row k of the first-layer weights' top three rows. -/
def top (k : Fin 3) : Fin 131 := ⟨k.val, by omega⟩
/-- Row a of the first-layer weights' bottom 128 rows. -/
def bot (a : Fin 128) : Fin 131 := ⟨3 + a.val, by omega⟩

/-- The zero both programs clamp at. -/
abbrev zeroF : EReal := Ideal.ofBits .f32 0x00000000#32
/-- The radius both programs scale the offsets by, one quarter. -/
abbrev quarter : EReal := Ideal.ofBits .f32 0x3E800000#32

/-! ## One row -/

/-- The row's relative offsets. -/
def relRow (f : Fin 160 → EReal) (Wn : Fin 32 → Fin 48 → EReal) (bn : Fin 48 → EReal) (q : Fin 48) : EReal :=
  (∑ a : Fin 32, f (lo a) * Wn a q) + bn q

/-- Neighbour j's output point: the anchor plus a quarter of the neighbour's triple. -/
def ptRow (p : Fin 3 → EReal) (f : Fin 160 → EReal) (Wn : Fin 32 → Fin 48 → EReal) (bn : Fin 48 → EReal)
    (j : Fin 16) (k : Fin 3) : EReal :=
  p k + relRow f Wn bn (nb j k) * quarter

/-- Neighbour j's perceptron input: its triple, then the row's last 128 features. -/
def catRow (f : Fin 160 → EReal) (Wn : Fin 32 → Fin 48 → EReal) (bn : Fin 48 → EReal) (j : Fin 16) (q : Fin 131) : EReal :=
  if h : q.val < 3 then relRow f Wn bn (nb j ⟨q.val, h⟩) else f (hi ⟨q.val - 3, by omega⟩)

/-- The first layer before the clamp, as one sum over the 131 concatenated columns. -/
def lin1Cat (f : Fin 160 → EReal) (Wn : Fin 32 → Fin 48 → EReal) (bn : Fin 48 → EReal)
    (W1 : Fin 131 → Fin 256 → EReal) (b1 : Fin 256 → EReal) (j : Fin 16) (c : Fin 256) : EReal :=
  (∑ q : Fin 131, catRow f Wn bn j q * W1 q c) + b1 c

/-- The first layer before the clamp, the part shared by the sixteen neighbours first. -/
def lin1Split (f : Fin 160 → EReal) (Wn : Fin 32 → Fin 48 → EReal) (bn : Fin 48 → EReal)
    (W1 : Fin 131 → Fin 256 → EReal) (b1 : Fin 256 → EReal) (j : Fin 16) (c : Fin 256) : EReal :=
  ((∑ a : Fin 128, f (hi a) * W1 (bot a) c) + b1 c) + ∑ k : Fin 3, relRow f Wn bn (nb j k) * W1 (top k) c

/-- Layers two and three on a first-layer row l1 (before its clamp), and the three clamps. -/
def mlp (l1 : Fin 256 → EReal) (W2 : Fin 256 → Fin 128 → EReal) (b2 : Fin 128 → EReal)
    (W3 : Fin 128 → Fin 32 → EReal) (b3 : Fin 32 → EReal) (e : Fin 32) : EReal :=
  max ((∑ d : Fin 128, max ((∑ c : Fin 256, max (l1 c) zeroF * W2 c d) + b2 d) zeroF * W3 d e) + b3 e) zeroF

/-- A sum over 131 columns is the sum over the top three plus the sum over the bottom 128. -/
theorem sum_split (g : Fin 131 → EReal) : ∑ q : Fin 131, g q = (∑ k : Fin 3, g (top k)) + ∑ a : Fin 128, g (bot a) :=
  Fin.sum_univ_add (a := 3) (b := 128) g

theorem catRow_top (f : Fin 160 → EReal) (Wn : Fin 32 → Fin 48 → EReal) (bn : Fin 48 → EReal) (j : Fin 16) (k : Fin 3) :
    catRow f Wn bn j (top k) = relRow f Wn bn (nb j k) := by
  unfold catRow
  rw [dif_pos (show (top k).val < 3 from k.isLt)]
  rfl

theorem catRow_bot (f : Fin 160 → EReal) (Wn : Fin 32 → Fin 48 → EReal) (bn : Fin 48 → EReal) (j : Fin 16) (a : Fin 128) :
    catRow f Wn bn j (bot a) = f (hi a) := by
  unfold catRow
  rw [dif_neg (show ¬ (bot a).val < 3 by show ¬ 3 + a.val < 3; omega)]
  exact congrArg f (congrArg hi (Fin.ext (by show 3 + a.val - 3 = a.val; omega)))

/-- The two spellings of the first layer are one function: the same summands, regrouped. -/
theorem lin1Cat_eq_lin1Split (f : Fin 160 → EReal) (Wn : Fin 32 → Fin 48 → EReal) (bn : Fin 48 → EReal)
    (W1 : Fin 131 → Fin 256 → EReal) (b1 : Fin 256 → EReal) (j : Fin 16) (c : Fin 256) :
    lin1Cat f Wn bn W1 b1 j c = lin1Split f Wn bn W1 b1 j c := by
  unfold lin1Cat lin1Split
  rw [sum_split]
  simp only [catRow_top, catRow_bot]
  rw [add_comm (∑ k : Fin 3, _) (∑ a : Fin 128, _), add_right_comm]

/-! ## Whole arrays -/

/-- A rank-two array of extended reals. -/
abbrev A2 (a b : Nat) : Type := (⟨2, ![a, b]⟩ : Shape).Idx → EReal
/-- A rank-one array of extended reals. -/
abbrev A1 (a : Nat) : Type := (⟨1, ![a]⟩ : Shape).Idx → EReal

/-- Row n of a rank-two array. -/
def row {a b : Nat} (x : A2 a b) (n : Fin a) : Fin b → EReal := fun k => x (ix2 n k)
/-- A rank-two array as a function of two coordinates. -/
def mat {a b : Nat} (x : A2 a b) : Fin a → Fin b → EReal := fun i k => x (ix2 i k)
/-- A rank-one array as a function of its coordinate. -/
def vec {a : Nat} (x : A1 a) : Fin a → EReal := fun k => x (ix1 k)

/-- The input row that output row i is a neighbour of. -/
def srcRow (i : Fin 800000) : Fin 50000 := ⟨i.val / 16, by have := i.isLt; omega⟩
/-- Which of its row's sixteen neighbours output row i is. -/
def srcNb (i : Fin 800000) : Fin 16 := ⟨i.val % 16, Nat.mod_lt _ (by decide)⟩

/-- The output points, as one function of the argument arrays. -/
def outPoints (pts : A2 50000 3) (feat : A2 50000 160) (Wn : A2 32 48) (bn : A1 48) : A2 800000 3 := fun i =>
  ptRow (row pts (srcRow (i 0))) (row feat (srcRow (i 0))) (mat Wn) (vec bn) (srcNb (i 0)) (i 1)

/-- The output features, as one function of the argument arrays (first layer in the shared-part-first spelling). -/
def outFeat (feat : A2 50000 160) (Wn : A2 32 48) (bn : A1 48) (W1 : A2 131 256) (b1 : A1 256)
    (W2 : A2 256 128) (b2 : A1 128) (W3 : A2 128 32) (b3 : A1 32) : A2 800000 32 := fun i =>
  mlp (lin1Split (row feat (srcRow (i 0))) (mat Wn) (vec bn) (mat W1) (vec b1) (srcNb (i 0))) (mat W2) (vec b2) (mat W3) (vec b3) (i 1)

end Cert.Decoder

end
-- ==== Proof.RefValue.lean ====
/-
  The reference's results, read index by index, are the decoder's whole-array functions of the arguments.

  Output row i of the reference is row i / 16 of the 50000 x 48 offset array reshaped to triples (offsets
  3 (i % 16) .. 3 (i % 16) + 2), beside row i / 16 of the last 128 feature columns repeated sixteen times. Its first
  layer is one product with the 131-row weight array, so it is the decoder's first layer in the concatenated
  spelling; the regrouping law of the specification turns that into the shared-part-first spelling.
-/
import proofs.«151593_j45389214384421_1_alg».proof.Proof.Gen.ReferenceIdeal.Read
import proofs.«151593_j45389214384421_1_alg».proof.Proof.Spec

noncomputable section

namespace Cert.ReferenceIdeal.RefValue

open Cert.ReferenceIdeal Cert.ReferenceIdeal.Gen Cert.ReferenceIdeal.Read Idealize.ShloMosaic Idealize.ShloMosaic.TcCoe
open Idealize.ShloMosaic.ValueIdx Cert.Decoder

/-! ## Indices by their coordinates -/

/-- A rank-two index is the pair of its coordinates' values. -/
theorem ix2_of_val {n0 n1 : Nat} (j : (⟨2, ![n0, n1]⟩ : Shape).Idx) (a : Fin n0) (b : Fin n1)
    (h0 : (j 0).val = a.val) (h1 : (j 1).val = b.val) : j = ix2 a b :=
  funext fun d => Fin.ext (by
    match d with
    | ⟨0, _⟩ => exact h0
    | ⟨1, _⟩ => exact h1)

/-- A rank-one index is its coordinate's value. -/
theorem ix1_of_val {n0 : Nat} (j : (⟨1, ![n0]⟩ : Shape).Idx) (a : Fin n0) (h0 : (j 0).val = a.val) : j = ix1 a :=
  funext fun d => Fin.ext (by
    match d with
    | ⟨0, _⟩ => exact h0)

/-! ## The offsets: output row r, offset q, is offset 3 (r % 16) + q of input row r / 16 -/

/-- The feature column read by term k of the offset product at output position (r, q). -/
theorem idx_feat_lo (r : Fin 800000) (q : Fin 3) (k : Fin 32) :
    idx_main_v0 (lidx_main_v2 (idx_main_v6 (ix2 r q)) k) = ix2 (srcRow r) (lo k) :=
  ix2_of_val _ _ _ (by show (r.val * 3 + q.val) / 48 = r.val / 16; omega) rfl

/-- The weight read by term k of the offset product at output position (r, q). -/
theorem idx_wn (r : Fin 800000) (q : Fin 3) (k : Fin 32) :
    ridx_main_v2 (idx_main_v6 (ix2 r q)) k = ix2 k (nb (srcNb r) q) :=
  ix2_of_val _ _ _ rfl (by show (r.val * 3 + q.val) % 48 = 3 * (r.val % 16) + q.val; omega)

/-- The offset bias read at output position (r, q). -/
theorem idx_bn (r : Fin 800000) (q : Fin 3) :
    idx_main_v3 (idx_main_v4 (idx_main_v6 (ix2 r q))) = ix1 (nb (srcNb r) q) :=
  ix1_of_val _ _ (by show (r.val * 3 + q.val) % 48 = 3 * (r.val % 16) + q.val; omega)

/-- The reshaped offsets at (r, q) are the row's relative offset of neighbour r % 16, coordinate q. -/
theorem offsets_at (x1 : (⟨S50000x160, .f32⟩ : BufTy).Contents (Elt Ideal)) (x3 : (⟨S32x48, .f32⟩ : BufTy).Contents (Elt Ideal)) (x4 : (⟨S48, .f32⟩ : BufTy).Contents (Elt Ideal)) (r : Fin 800000) (q : Fin 3) :
    val_main_v6 (F := Ideal) x1 x3 x4 (ix2 r q)
      = relRow (row x1 (srcRow r)) (mat x3) (vec x4) (nb (srcNb r) q) := by
  rw [val_main_v6_apply, val_main_v5_apply, val_main_v2_apply, val_main_v4_apply, val_main_v3_apply, idx_bn]
  have hs : (∑ k : Fin 32, val_main_v0 (F := Ideal) x1 (lidx_main_v2 (idx_main_v6 (ix2 r q)) k) * x3 (ridx_main_v2 (idx_main_v6 (ix2 r q)) k))
      = ∑ a : Fin 32, row x1 (srcRow r) (lo a) * mat x3 a (nb (srcNb r) q) :=
    Finset.sum_congr rfl fun k _ => by
      rw [val_main_v0_apply, idx_feat_lo, idx_wn]
      rfl
  rw [hs]
  rfl

/-! ## The repeated features: output row r, column a, is feature column 32 + a of input row r / 16 -/

/-- The feature read by the repeated block at output position (r, a). -/
theorem idx_feat_hi (r : Fin 800000) (a : Fin 128) :
    idx_main_v1 (idx_main_v9 (idx_main_v10 (ix2 r a))) = ix2 (srcRow r) (hi a) :=
  ix2_of_val _ _ _ (by show (r.val * 128 + a.val) / 2048 = r.val / 16; omega)
    (by show 32 + (r.val * 128 + a.val) % 128 = 32 + a.val; omega)

/-- The repeated block at (r, a) is the row's feature 32 + a. -/
theorem shared_at (x1 : (⟨S50000x160, .f32⟩ : BufTy).Contents (Elt Ideal)) (r : Fin 800000) (a : Fin 128) :
    val_main_v10 (F := Ideal) x1 (ix2 r a) = row x1 (srcRow r) (hi a) := by
  rw [val_main_v10_apply, val_main_v9_apply, val_main_v1_apply, idx_feat_hi]
  rfl

/-! ## The joined array: three offsets, then the 128 repeated features -/

/-- The joined array at (r, c) is the neighbour's perceptron input. -/
theorem joined_at (x1 : (⟨S50000x160, .f32⟩ : BufTy).Contents (Elt Ideal)) (x3 : (⟨S32x48, .f32⟩ : BufTy).Contents (Elt Ideal)) (x4 : (⟨S48, .f32⟩ : BufTy).Contents (Elt Ideal)) (r : Fin 800000) (c : Fin 131) :
    val_main_v11 (F := Ideal) x1 x3 x4 (ix2 r c)
      = catRow (row x1 (srcRow r)) (mat x3) (vec x4) (srcNb r) c := by
  unfold val_main_v11 catRow
  by_cases h : c.val < 3
  · rw [dif_pos h]
    refine (concatenate_pair_apply_left 1 _ _ concatenates_S800000x3_S800000x128_S800000x131_d1 (ix2 r c) rfl
      (ix2 r ⟨c.val, h⟩) (fun b => ?_)).trans (offsets_at x1 x3 x4 r ⟨c.val, h⟩)
    match b with
    | ⟨0, _⟩ => rfl
    | ⟨1, _⟩ => rfl
  · rw [dif_neg h]
    refine (concatenate_pair_apply_right 1 _ _ concatenates_S800000x3_S800000x128_S800000x131_d1 (ix2 r c) rfl rfl
      (ix2 r ⟨c.val - 3, by have := c.isLt; omega⟩) (fun b => ?_) ?_).trans (shared_at x1 r ⟨c.val - 3, by have := c.isLt; omega⟩)
    · match b with
      | ⟨0, _⟩ => exact fun _ => rfl
      | ⟨1, _⟩ => exact fun hne => absurd rfl hne
    · show c.val - 3 + 3 = c.val
      omega

/-! ## The first layer, in the concatenated spelling -/

theorem idx_cat (r : Fin 800000) (c : Fin 256) (k : Fin 131) : lidx_main_v12 (ix2 r c) k = ix2 r k :=
  ix2_of_val _ _ _ rfl rfl

theorem idx_w1 (r : Fin 800000) (c : Fin 256) (k : Fin 131) : ridx_main_v12 (ix2 r c) k = ix2 k c :=
  ix2_of_val _ _ _ rfl rfl

theorem idx_b1 (r : Fin 800000) (c : Fin 256) : idx_main_v13 (idx_main_v14 (ix2 r c)) = ix1 c :=
  ix1_of_val _ _ rfl

/-- The first layer before its clamp at (r, c). -/
theorem layer1_at (x1 : (⟨S50000x160, .f32⟩ : BufTy).Contents (Elt Ideal)) (x3 : (⟨S32x48, .f32⟩ : BufTy).Contents (Elt Ideal)) (x4 : (⟨S48, .f32⟩ : BufTy).Contents (Elt Ideal)) (x5 : (⟨S131x256, .f32⟩ : BufTy).Contents (Elt Ideal)) (x6 : (⟨S256, .f32⟩ : BufTy).Contents (Elt Ideal)) (r : Fin 800000) (c : Fin 256) :
    val_main_v15 (F := Ideal) x1 x3 x4 x5 x6 (ix2 r c)
      = lin1Cat (row x1 (srcRow r)) (mat x3) (vec x4) (mat x5) (vec x6) (srcNb r) c := by
  rw [val_main_v15_apply, val_main_v12_apply, val_main_v14_apply, val_main_v13_apply, idx_b1]
  have hs : (∑ k : Fin 131, val_main_v11 (F := Ideal) x1 x3 x4 (lidx_main_v12 (ix2 r c) k) * x5 (ridx_main_v12 (ix2 r c) k))
      = ∑ q : Fin 131, catRow (row x1 (srcRow r)) (mat x3) (vec x4) (srcNb r) q * mat x5 q c :=
    Finset.sum_congr rfl fun k _ => by
      rw [idx_cat, idx_w1, joined_at]
      rfl
  rw [hs]
  rfl

/-! ## Layers two and three -/

theorem idx_l2 (r : Fin 800000) (d : Fin 128) (k : Fin 256) : lidx_main_v17 (ix2 r d) k = ix2 r k :=
  ix2_of_val _ _ _ rfl rfl

theorem idx_w2 (r : Fin 800000) (d : Fin 128) (k : Fin 256) : ridx_main_v17 (ix2 r d) k = ix2 k d :=
  ix2_of_val _ _ _ rfl rfl

theorem idx_b2 (r : Fin 800000) (d : Fin 128) : idx_main_v18 (idx_main_v19 (ix2 r d)) = ix1 d :=
  ix1_of_val _ _ rfl

theorem idx_l3 (r : Fin 800000) (e : Fin 32) (k : Fin 128) : lidx_main_v22 (ix2 r e) k = ix2 r k :=
  ix2_of_val _ _ _ rfl rfl

theorem idx_w3 (r : Fin 800000) (e : Fin 32) (k : Fin 128) : ridx_main_v22 (ix2 r e) k = ix2 k e :=
  ix2_of_val _ _ _ rfl rfl

theorem idx_b3 (r : Fin 800000) (e : Fin 32) : idx_main_v23 (idx_main_v24 (ix2 r e)) = ix1 e :=
  ix1_of_val _ _ rfl

/-- The first clamp at (r, c). -/
theorem relu1_at (x1 : (⟨S50000x160, .f32⟩ : BufTy).Contents (Elt Ideal)) (x3 : (⟨S32x48, .f32⟩ : BufTy).Contents (Elt Ideal)) (x4 : (⟨S48, .f32⟩ : BufTy).Contents (Elt Ideal)) (x5 : (⟨S131x256, .f32⟩ : BufTy).Contents (Elt Ideal)) (x6 : (⟨S256, .f32⟩ : BufTy).Contents (Elt Ideal)) (r : Fin 800000) (c : Fin 256) :
    val_main_v16 (F := Ideal) x1 x3 x4 x5 x6 (ix2 r c)
      = max (lin1Cat (row x1 (srcRow r)) (mat x3) (vec x4) (mat x5) (vec x6) (srcNb r) c) zeroF := by
  rw [val_main_v16_apply, val_main_call0_v0_apply, val_main_call0_cst_apply, layer1_at]
  rfl

/-- The second clamp at (r, d). -/
theorem relu2_at (x1 : (⟨S50000x160, .f32⟩ : BufTy).Contents (Elt Ideal)) (x3 : (⟨S32x48, .f32⟩ : BufTy).Contents (Elt Ideal)) (x4 : (⟨S48, .f32⟩ : BufTy).Contents (Elt Ideal)) (x5 : (⟨S131x256, .f32⟩ : BufTy).Contents (Elt Ideal)) (x6 : (⟨S256, .f32⟩ : BufTy).Contents (Elt Ideal)) (x7 : (⟨S256x128, .f32⟩ : BufTy).Contents (Elt Ideal)) (x8 : (⟨S128, .f32⟩ : BufTy).Contents (Elt Ideal)) (r : Fin 800000) (d : Fin 128) :
    val_main_v21 (F := Ideal) x1 x3 x4 x5 x6 x7 x8 (ix2 r d)
      = max ((∑ c : Fin 256, max (lin1Cat (row x1 (srcRow r)) (mat x3) (vec x4) (mat x5) (vec x6) (srcNb r) c) zeroF
          * mat x7 c d) + vec x8 d) zeroF := by
  rw [val_main_v21_apply, val_main_call1_v0_apply, val_main_call1_cst_apply, val_main_v20_apply, val_main_v17_apply,
    val_main_v19_apply, val_main_v18_apply, idx_b2]
  have hs : (∑ k : Fin 256, val_main_v16 (F := Ideal) x1 x3 x4 x5 x6 (lidx_main_v17 (ix2 r d) k) * x7 (ridx_main_v17 (ix2 r d) k))
      = ∑ c : Fin 256, max (lin1Cat (row x1 (srcRow r)) (mat x3) (vec x4) (mat x5) (vec x6) (srcNb r) c) zeroF * mat x7 c d :=
    Finset.sum_congr rfl fun k _ => by
      rw [idx_l2, idx_w2, relu1_at]
      rfl
  rw [hs]
  rfl

/-- The third clamp at (r, e): the decoder's perceptron on the concatenated first layer. -/
theorem relu3_at (x1 : (⟨S50000x160, .f32⟩ : BufTy).Contents (Elt Ideal)) (x3 : (⟨S32x48, .f32⟩ : BufTy).Contents (Elt Ideal)) (x4 : (⟨S48, .f32⟩ : BufTy).Contents (Elt Ideal)) (x5 : (⟨S131x256, .f32⟩ : BufTy).Contents (Elt Ideal)) (x6 : (⟨S256, .f32⟩ : BufTy).Contents (Elt Ideal)) (x7 : (⟨S256x128, .f32⟩ : BufTy).Contents (Elt Ideal)) (x8 : (⟨S128, .f32⟩ : BufTy).Contents (Elt Ideal)) (x9 : (⟨S128x32, .f32⟩ : BufTy).Contents (Elt Ideal)) (x10 : (⟨S32, .f32⟩ : BufTy).Contents (Elt Ideal)) (r : Fin 800000) (e : Fin 32) :
    val_main_v26 (F := Ideal) x1 x3 x4 x5 x6 x7 x8 x9 x10 (ix2 r e)
      = mlp (lin1Cat (row x1 (srcRow r)) (mat x3) (vec x4) (mat x5) (vec x6) (srcNb r)) (mat x7) (vec x8) (mat x9) (vec x10) e := by
  rw [val_main_v26_apply, val_main_call2_v0_apply, val_main_call2_cst_apply, val_main_v25_apply, val_main_v22_apply,
    val_main_v24_apply, val_main_v23_apply, idx_b3]
  have hs : (∑ k : Fin 128, val_main_v21 (F := Ideal) x1 x3 x4 x5 x6 x7 x8 (lidx_main_v22 (ix2 r e) k) * x9 (ridx_main_v22 (ix2 r e) k))
      = ∑ d : Fin 128, max ((∑ c : Fin 256, max (lin1Cat (row x1 (srcRow r)) (mat x3) (vec x4) (mat x5) (vec x6) (srcNb r) c) zeroF
          * mat x7 c d) + vec x8 d) zeroF * mat x9 d e :=
    Finset.sum_congr rfl fun k _ => by
      rw [idx_l3, idx_w3, relu2_at]
      rfl
  rw [hs]
  rfl

/-! ## The anchor points -/

/-- The anchor read at output position (r, q). -/
theorem idx_anchor (r : Fin 800000) (q : Fin 3) : idx_main_v27 (idx_main_v28 (ix2 r q)) = ix2 (srcRow r) q :=
  ix2_of_val _ _ _ (by show (r.val * 3 + q.val) / 48 = r.val / 16; omega)
    (by show (r.val * 3 + q.val) % 3 = q.val; omega)

/-! ## The two results -/

/-- The reference's output points are the decoder's. -/
theorem points_eq (x0 : (⟨S50000x3, .f32⟩ : BufTy).Contents (Elt Ideal)) (x1 : (⟨S50000x160, .f32⟩ : BufTy).Contents (Elt Ideal))
    (x3 : (⟨S32x48, .f32⟩ : BufTy).Contents (Elt Ideal)) (x4 : (⟨S48, .f32⟩ : BufTy).Contents (Elt Ideal)) :
    val_main_v31 (F := Ideal) x0 x1 x3 x4 = outPoints x0 x1 x3 x4 := by
  funext i
  obtain ⟨r, q, rfl⟩ : ∃ (r : Fin 800000) (q : Fin 3), i = ix2 r q := ⟨i 0, i 1, eq_ix2 i⟩
  rw [val_main_v31_apply, val_main_v28_apply, val_main_v27_apply, idx_anchor, val_main_v30_apply, val_main_v29_apply,
    val_main_cst_apply, offsets_at]
  rfl

/-- The reference's output features are the decoder's. -/
theorem feat_eq (x1 : (⟨S50000x160, .f32⟩ : BufTy).Contents (Elt Ideal)) (x3 : (⟨S32x48, .f32⟩ : BufTy).Contents (Elt Ideal))
    (x4 : (⟨S48, .f32⟩ : BufTy).Contents (Elt Ideal)) (x5 : (⟨S131x256, .f32⟩ : BufTy).Contents (Elt Ideal))
    (x6 : (⟨S256, .f32⟩ : BufTy).Contents (Elt Ideal)) (x7 : (⟨S256x128, .f32⟩ : BufTy).Contents (Elt Ideal))
    (x8 : (⟨S128, .f32⟩ : BufTy).Contents (Elt Ideal)) (x9 : (⟨S128x32, .f32⟩ : BufTy).Contents (Elt Ideal))
    (x10 : (⟨S32, .f32⟩ : BufTy).Contents (Elt Ideal)) :
    val_main_v26 (F := Ideal) x1 x3 x4 x5 x6 x7 x8 x9 x10 = outFeat x1 x3 x4 x5 x6 x7 x8 x9 x10 := by
  funext i
  obtain ⟨r, e, rfl⟩ : ∃ (r : Fin 800000) (e : Fin 32), i = ix2 r e := ⟨i 0, i 1, eq_ix2 i⟩
  rw [relu3_at]
  have hl : lin1Cat (row x1 (srcRow r)) (mat x3) (vec x4) (mat x5) (vec x6) (srcNb r)
      = lin1Split (row x1 (srcRow r)) (mat x3) (vec x4) (mat x5) (vec x6) (srcNb r) :=
    funext fun c => lin1Cat_eq_lin1Split _ _ _ _ _ _ c
  rw [hl]
  rfl

end Cert.ReferenceIdeal.RefValue

end
-- ==== Proof.LibPlainDot.lean ====
/-
  Four reads at an index, general in the sizes, for rank-two vectors over any element type (the product at Ideal).

  * A plain product (rows x contraction times contraction x columns, no batch axis) into the zero accumulator, read at
    (r, c), is the sum over the contracted axis of lhs (r, k) * rhs (k, c).
  * A unit-stride slice of a rank-two vector read at (r, c) is the operand at (row offset + r, column offset + c).
  * A one-row vector broadcast down M rows reads its column: (r, c) reads (0, c).
  * A rank-two vector recast with a unit axis in the middle reads the same rows and columns: (r, 0, c) reads (r, c).
-/
import Idealize.ShloMosaic.Lib.Pipeline.Value
import Idealize.ShloMosaic.Lib.ValueIdx
import Idealize.ShloMosaic.PureOps.Ideal.Laws

noncomputable section

namespace Cert.LibPlainDot

open Idealize.ShloMosaic Idealize.ShloMosaic.ValueIdx

/-- A plain M x K by K x N product into the zero accumulator, read at (r, c): the sum over k of lhs (r, k) * rhs (k, c).
    The contraction index, an index of a rank-one shape, is carried to Fin K; the operand indices at (r, c) and k are
    (r, k) and (k, c) coordinate by coordinate. -/
theorem matmul_plain_apply {φ₁ φ₂ : FTy} (M K N : Nat) (lhs : FVec Ideal ⟨2, ![M, K]⟩ φ₁) (rhs : FVec Ideal ⟨2, ![K, N]⟩ φ₂)
    (r : Fin M) (c : Fin N) :
    matmul (DotDims.plain M K N) none lhs rhs (constant ⟨2, ![M, N]⟩ .f32 0x00000000#32) (ix2 r c)
      = ∑ k : Fin K, lhs (ix2 r k) * rhs (ix2 k c) := by
  show FloatOps.matmul (DotDims.plain M K N) none lhs rhs (constant ⟨2, ![M, N]⟩ .f32 0x00000000#32) (ix2 r c) = _
  rw [Ideal.matmul_constant_zero_apply, ← Equiv.sum_comp (ValueIdx.contrEquiv1 (DotDims.plain M K N) K rfl rfl).symm]
  refine Finset.sum_congr rfl fun k _ => ?_
  have hk := ValueIdx.contrEquiv1_symm_val (DotDims.plain M K N) K rfl rfl k
  have el : (DotDims.plain M K N).lhsIdx (ix2 r c) ((ValueIdx.contrEquiv1 (DotDims.plain M K N) K rfl rfl).symm k) = ix2 r k :=
    funext fun a => Fin.ext (by
      match a with
      | ⟨0, _⟩ => rfl
      | ⟨1, _⟩ => exact hk)
  have er : (DotDims.plain M K N).rhsIdx (ix2 r c) ((ValueIdx.contrEquiv1 (DotDims.plain M K N) K rfl rfl).symm k) = ix2 k c :=
    funext fun a => Fin.ext (by
      match a with
      | ⟨0, _⟩ => exact hk
      | ⟨1, _⟩ => rfl)
  rw [el, er]

/-- A unit-stride slice at offsets (o0, o1) of a rank-two vector, read at (r, c): the operand at (o0 + r, o1 + c). -/
theorem slice2_apply {α : Type} {M N M' N' : Nat} (o0 o1 : Nat) (x : (⟨2, ![M, N]⟩ : Shape).Idx → α)
    (h : (⟨2, ![M, N]⟩ : Shape).Slices ![o0, o1] ⟨2, ![M', N']⟩) (r : Fin M') (c : Fin N')
    (hr : o0 + r.val < M) (hc : o1 + c.val < N) :
    extractStridedSlice ⟨2, ![M', N']⟩ ![o0, o1] x h (ix2 r c) = x (ix2 ⟨o0 + r.val, hr⟩ ⟨o1 + c.val, hc⟩) :=
  extractStridedSlice_apply ![o0, o1] x h (ix2 r c) (ix2 ⟨o0 + r.val, hr⟩ ⟨o1 + c.val, hc⟩) (fun a => match a with
    | ⟨0, _⟩ => rfl
    | ⟨1, _⟩ => rfl)

/-- A one-row vector broadcast down M rows, read at (r, c): the row's entry c. -/
theorem bcastRow_apply {α : Type} {M N : Nat} (x : (⟨2, ![1, N]⟩ : Shape).Idx → α)
    (h : (⟨2, ![1, N]⟩ : Shape).Broadcasts ⟨2, ![M, N]⟩) (r : Fin M) (c : Fin N) :
    broadcastTo ⟨2, ![M, N]⟩ x h (ix2 r c) = x (ix2 ⟨0, Nat.one_pos⟩ c) :=
  broadcastTo_apply x h (ix2 r c) (ix2 ⟨0, Nat.one_pos⟩ c) (fun a => match a with
    | ⟨0, _⟩ => by show (0 : Nat) = if (1 : Nat) = 1 then 0 else r.val; rw [if_pos rfl]
    | ⟨1, _⟩ => by
        show c.val = if N = 1 then 0 else c.val
        by_cases hN : N = 1
        · rw [if_pos hN]; have := c.isLt; omega
        · rw [if_neg hN])

/-- A rank-two vector recast to rank three with a unit axis in the middle, read at (r, z, c): the operand at (r, c). -/
theorem shapeCast_midUnit_apply {α : Type} {M N : Nat} (x : (⟨2, ![M, N]⟩ : Shape).Idx → α)
    (h : (⟨2, ![M, N]⟩ : Shape).ShapeCasts ⟨3, ![M, 1, N]⟩) (r : Fin M) (z : Fin 1) (c : Fin N) :
    shapeCast ⟨3, ![M, 1, N]⟩ x h (ix3 r z c) = x (ix2 r c) :=
  shapeCast_apply x h (ix3 r z c) (ix2 r c) (by
    rw [Shape.rowMajor_val_two, Shape.rowMajor_val_three]
    have hz : z.val = 0 := by have := z.isLt; omega
    show r.val * N + c.val = (r.val * 1 + z.val) * N + c.val
    rw [hz, Nat.mul_one, Nat.add_zero])

end Cert.LibPlainDot

end
-- ==== Proof.KernelBlock.lean ====
/-
  What one grid point leaves in the two output blocks, index by index, at the ideal instance.

  The body computes, once per block of 400 rows, the 400 x 48 offsets rel and the shared first-layer part common, and
  then for each neighbour j = 0 .. 15 stores two slabs: the points slab (anchor + a quarter of columns 3j .. 3j+2 of rel)
  into rows (., j, .) of the 400 x 16 x 3 block, and the features slab (the perceptron of those three columns) into rows
  (., j, .) of the 400 x 16 x 32 block. ptVec and fcVec are one neighbour's two slabs as functions of its three offset
  columns; every one of the thirty-two stored values is ptVec or fcVec of a slice of rel. ptBlock and fcBlock are the two
  blocks as single functions of the block index (r, j, k): each stored slab agrees with them on its rectangle, and the
  sixteen rectangles tile the block, so the block holds them everywhere.
-/
import proofs.«151593_j45389214384421_1_alg».proof.Proof.Gen.KernelIdeal.Frame
import proofs.«151593_j45389214384421_1_alg».proof.Proof.Spec
import proofs.«151593_j45389214384421_1_alg».proof.Proof.LibPlainDot

set_option maxRecDepth 16384

noncomputable section

namespace Cert.KernelIdeal.Block

open Cert.KernelIdeal Cert.KernelIdeal.Gen Idealize.ShloMosaic Idealize.ShloMosaic.TcCoe Idealize.ShloMosaic.ValueIdx
open Cert.Decoder Cert.LibPlainDot

/-! ## One neighbour's two slabs, at any instance -/

section Uniform

variable {F : FTy → Type} [FloatOps F]

/-- A neighbour's points slab: the anchor rows plus a quarter of the neighbour's three offset columns. -/
def ptVec (pts : Vec F S400x3 .f32) (relj : FVec F S400x3 .f32) : FVec F S400x1x3 .f32 :=
  shapeCast S400x1x3 (addf pts (mulf relj (broadcast S400x3 (Scalar.ofBits .f32 0x3E800000#32)))) shapeCasts_S400x3_S400x1x3

/-- A neighbour's features slab: three layers, each a product, a bias row and a clamp at zero, the first layer's
    product with the top three weight rows added to the shared part. -/
def fcVec (relj : FVec F S400x3 .f32) (w1top : FVec F S3x256 .bf16) (common : FVec F S400x256 .f32)
    (w2 : FVec F S256x128 .bf16) (b2 : FVec F S1x128 .f32) (w3 : FVec F S128x32 .bf16) (b3 : FVec F S1x32 .f32) :
    FVec F S400x1x32 .f32 :=
  shapeCast S400x1x32
    (maximumf
      (addf
        (matmul dot_S400x128_S128x32_S400x32_1_0_0_1_n_n none
          (truncf .bf16
            (maximumf
              (addf
                (matmul dot_S400x256_S256x128_S400x128_1_0_0_1_n_n none
                  (truncf .bf16
                    (maximumf
                      (addf common
                        (matmul dot_S400x3_S3x256_S400x256_1_0_0_1_n_n none (truncf .bf16 relj bitsLt_bf16_f32) w1top
                          (constant S400x256 .f32 0x00000000#32)))
                      (broadcast S400x256 (Scalar.ofBits .f32 0x00000000#32)))
                    bitsLt_bf16_f32)
                  w2 (constant S400x128 .f32 0x00000000#32))
                (broadcastTo S400x128 b2 broadcasts_S1x128_S400x128))
              (broadcast S400x128 (Scalar.ofBits .f32 0x00000000#32)))
            bitsLt_bf16_f32)
          w3 (constant S400x32 .f32 0x00000000#32))
        (broadcastTo S400x32 b3 broadcasts_S1x32_S400x32))
      (broadcast S400x32 (Scalar.ofBits .f32 0x00000000#32)))
    shapeCasts_S400x32_S400x1x32

end Uniform

/-! ## The slabs read at an index -/

theorem dot_top : dot_S400x3_S3x256_S400x256_1_0_0_1_n_n = DotDims.plain 400 3 256 := rfl
theorem dot_two : dot_S400x256_S256x128_S400x128_1_0_0_1_n_n = DotDims.plain 400 256 128 := rfl
theorem dot_three : dot_S400x128_S128x32_S400x32_1_0_0_1_n_n = DotDims.plain 400 128 32 := rfl
theorem dot_rel : dot_S400x32_S32x48_S400x48_1_0_0_1_n_n = DotDims.plain 400 32 48 := rfl
theorem dot_common : dot_S400x128_S128x256_S400x256_1_0_0_1_n_n = DotDims.plain 400 128 256 := rfl

/-- The points slab at (r, 0, k). -/
theorem ptVec_apply (pts : Vec Ideal S400x3 .f32) (relj : FVec Ideal S400x3 .f32) (r : Fin 400) (z : Fin 1) (k : Fin 3) :
    ptVec pts relj (ix3 r z k) = pts (ix2 r k) + relj (ix2 r k) * quarter := by
  unfold ptVec
  exact shapeCast_midUnit_apply _ shapeCasts_S400x3_S400x1x3 r z k

/-- The features slab at (r, 0, e): the perceptron's last two layers on the first-layer row
    c ↦ common (r, c) + the sum over the three offset columns of relj (r, k) * w1top (k, c). -/
theorem fcVec_apply (relj : FVec Ideal S400x3 .f32) (w1top : FVec Ideal S3x256 .bf16) (common : FVec Ideal S400x256 .f32)
    (w2 : FVec Ideal S256x128 .bf16) (b2 : FVec Ideal S1x128 .f32) (w3 : FVec Ideal S128x32 .bf16) (b3 : FVec Ideal S1x32 .f32)
    (r : Fin 400) (z : Fin 1) (e : Fin 32) :
    fcVec relj w1top common w2 b2 w3 b3 (ix3 r z e)
      = mlp (fun c => common (ix2 r c) + ∑ k : Fin 3, relj (ix2 r k) * w1top (ix2 k c))
          (fun c d => w2 (ix2 c d)) (fun d => b2 (ix2 ⟨0, Nat.one_pos⟩ d)) (fun d e => w3 (ix2 d e)) (fun e => b3 (ix2 ⟨0, Nat.one_pos⟩ e)) e := by
  unfold fcVec mlp
  rw [dot_top, dot_two, dot_three]
  refine (shapeCast_midUnit_apply _ shapeCasts_S400x32_S400x1x32 r z e).trans ?_
  simp only [maximumf_apply, addf_apply, broadcast_apply, truncf_apply, matmul_plain_apply, bcastRow_apply]
  rfl

/-! ## The shared values read at an index -/

/-- The first 32 feature columns of the block, read at (r, a). -/
theorem lo_slice (x0 : Vec Ideal S400x160 .f32) (r : Fin 400) (a : Fin 32) :
    extractStridedSlice S400x32 ![0, 0] x0 slices_S400x160_o0_0_S400x32 (ix2 r a) = x0 (ix2 r (lo a)) :=
  extractStridedSlice_apply ![0, 0] x0 slices_S400x160_o0_0_S400x32 (ix2 r a) (ix2 r (lo a)) (fun b => match b with
    | ⟨0, _⟩ => by show r.val = 0 + r.val; omega
    | ⟨1, _⟩ => by show a.val = 0 + a.val; omega)

/-- The last 128 feature columns of the block, read at (r, a). -/
theorem hi_slice (x0 : Vec Ideal S400x160 .f32) (r : Fin 400) (a : Fin 128) :
    extractStridedSlice S400x128 ![0, 32] x0 slices_S400x160_o0_32_S400x128 (ix2 r a) = x0 (ix2 r (hi a)) :=
  extractStridedSlice_apply ![0, 32] x0 slices_S400x160_o0_32_S400x128 (ix2 r a) (ix2 r (hi a)) (fun b => match b with
    | ⟨0, _⟩ => by show r.val = 0 + r.val; omega
    | ⟨1, _⟩ => by show 32 + a.val = 32 + a.val; omega)

/-- The top three first-layer weight rows, read at (k, c). -/
theorem top_slice (x4 : Vec Ideal S131x256 .f32) (k : Fin 3) (c : Fin 256) :
    extractStridedSlice S3x256 ![0, 0] x4 slices_S131x256_o0_0_S3x256 (ix2 k c) = x4 (ix2 (top k) c) :=
  extractStridedSlice_apply ![0, 0] x4 slices_S131x256_o0_0_S3x256 (ix2 k c) (ix2 (top k) c) (fun b => match b with
    | ⟨0, _⟩ => by show k.val = 0 + k.val; omega
    | ⟨1, _⟩ => by show c.val = 0 + c.val; omega)

/-- The bottom 128 first-layer weight rows, read at (a, c). -/
theorem bot_slice (x4 : Vec Ideal S131x256 .f32) (a : Fin 128) (c : Fin 256) :
    extractStridedSlice S128x256 ![3, 0] x4 slices_S131x256_o3_0_S128x256 (ix2 a c) = x4 (ix2 (bot a) c) :=
  extractStridedSlice_apply ![3, 0] x4 slices_S131x256_o3_0_S128x256 (ix2 a c) (ix2 (bot a) c) (fun b => match b with
    | ⟨0, _⟩ => by show 3 + a.val = 3 + a.val; omega
    | ⟨1, _⟩ => by show c.val = 0 + c.val; omega)

/-- The block's offsets at (r, q) are the decoder's offsets of block row r. -/
theorem rel_apply (x0 : Vec Ideal S400x160 .f32) (x2 : Vec Ideal S32x48 .f32) (x3 : Vec Ideal S1x48 .f32) (r : Fin 400) (q : Fin 48) :
    k0_pay3 (F := Ideal) x0 x2 x3 (ix2 r q) = relRow (row x0 r) (mat x2) (fun q => x3 (ix2 ⟨0, Nat.one_pos⟩ q)) q := by
  unfold k0_pay3 relRow row mat
  dsimp only
  rw [dot_rel]
  simp only [addf_apply, truncf_apply, matmul_plain_apply, bcastRow_apply, shapeCast_self]
  exact congrArg (· + x3 (ix2 ⟨0, Nat.one_pos⟩ q))
    (Finset.sum_congr rfl fun a _ => congrArg (· * x2 (ix2 a q)) (lo_slice x0 r a))

/-- The top three first-layer weight rows at (k, c). -/
theorem w1top_apply (x4 : Vec Ideal S131x256 .f32) (k : Fin 3) (c : Fin 256) :
    k0_pay4 (F := Ideal) x4 (ix2 k c) = mat x4 (top k) c := by
  unfold k0_pay4 mat
  exact top_slice x4 k c

/-- The shared first-layer part at (r, c): the last 128 features of block row r times the bottom weight rows, plus the bias. -/
theorem common_apply (x0 : Vec Ideal S400x160 .f32) (x4 : Vec Ideal S131x256 .f32) (x5 : Vec Ideal S1x256 .f32) (r : Fin 400) (c : Fin 256) :
    k0_pay5 (F := Ideal) x0 x4 x5 (ix2 r c) = (∑ a : Fin 128, row x0 r (hi a) * mat x4 (bot a) c) + x5 (ix2 ⟨0, Nat.one_pos⟩ c) := by
  unfold k0_pay5 row mat
  rw [dot_common]
  simp only [addf_apply, truncf_apply, matmul_plain_apply, bcastRow_apply, shapeCast_self]
  exact congrArg (· + x5 (ix2 ⟨0, Nat.one_pos⟩ c))
    (Finset.sum_congr rfl fun a _ => congrArg₂ (· * ·) (hi_slice x0 r a) (bot_slice x4 a c))

/-! ## The two blocks as single functions of the block index -/

/-- The three coordinates of a rank-three index, each in its own Fin. -/
def co0 {a b c : Nat} (y : (⟨3, ![a, b, c]⟩ : Shape).Idx) : Fin a := ⟨(y 0).val, (y 0).isLt⟩
def co1 {a b c : Nat} (y : (⟨3, ![a, b, c]⟩ : Shape).Idx) : Fin b := ⟨(y 1).val, (y 1).isLt⟩
def co2 {a b c : Nat} (y : (⟨3, ![a, b, c]⟩ : Shape).Idx) : Fin c := ⟨(y 2).val, (y 2).isLt⟩

/-- The points block at (r, j, k): the anchor (r, k) plus a quarter of offset 3j + k of row r. -/
def ptBlock (x1 : Vec Ideal S400x3 .f32) (rel : FVec Ideal S400x48 .f32) (y : S400x16x3.Idx) : EReal :=
  x1 (ix2 (co0 y) (co2 y)) + rel (ix2 (co0 y) (nb (co1 y) (co2 y))) * quarter

/-- The features block at (r, j, e): the perceptron's last two layers on the first-layer row built from row r's shared
    part and neighbour j's three offsets. -/
def fcBlock (rel : FVec Ideal S400x48 .f32) (w1top : FVec Ideal S3x256 .bf16) (common : FVec Ideal S400x256 .f32)
    (w2 : FVec Ideal S256x128 .bf16) (b2 : FVec Ideal S1x128 .f32) (w3 : FVec Ideal S128x32 .bf16) (b3 : FVec Ideal S1x32 .f32)
    (y : S400x16x32.Idx) : EReal :=
  mlp (fun c => common (ix2 (co0 y) c) + ∑ k : Fin 3, rel (ix2 (co0 y) (nb (co1 y) k)) * w1top (ix2 k c))
    (fun c d => w2 (ix2 c d)) (fun d => b2 (ix2 ⟨0, Nat.one_pos⟩ d)) (fun d e => w3 (ix2 d e)) (fun e => b3 (ix2 ⟨0, Nat.one_pos⟩ e)) (co2 y)

/-- Columns off .. off + 2 of the offsets, with off = 3 jn, read at (r, k): offset k of neighbour jn. -/
theorem nb_slice (rel : FVec Ideal S400x48 .f32) (jn off : Nat) (hoff : off = 3 * jn) (hj : jn < 16)
    (hs : S400x48.Slices ![0, off] S400x3) (r : Fin 400) (k : Fin 3) :
    extractStridedSlice S400x3 ![0, off] rel hs (ix2 r k) = rel (ix2 r (nb ⟨jn, hj⟩ k)) :=
  extractStridedSlice_apply ![0, off] rel hs (ix2 r k) (ix2 r (nb ⟨jn, hj⟩ k)) (fun b => match b with
    | ⟨0, _⟩ => by show r.val = 0 + r.val; omega
    | ⟨1, _⟩ => by show 3 * jn + k.val = off + k.val; omega)

/-- Neighbour jn's points slab agrees with the points block on the rectangle it is stored through, rows (., jn, .). -/
theorem pt_piece (x1 : Vec Ideal S400x3 .f32) (rel : FVec Ideal S400x48 .f32) (jn off : Nat) (hoff : off = 3 * jn)
    (hs : S400x48.Slices ![0, off] S400x3) (inb : ∀ a, (![0, jn, 0] : Fin 3 → Nat) a + S400x1x3.size a ≤ S400x16x3.size a)
    (x : S400x1x3.Idx) :
    ptVec x1 (extractStridedSlice S400x3 ![0, off] rel hs) x
      = ptBlock x1 rel ((Rect.unit (s := S400x16x3) ![0, jn, 0] S400x1x3.size inb).emb x) := by
  obtain ⟨p, q, k, rfl⟩ : ∃ (p : Fin 400) (q : Fin 1) (k : Fin 3), x = ix3 p q k := ⟨x 0, x 1, x 2, eq_ix3 x⟩
  have hq : q.val = 0 := by have := q.isLt; omega
  have hj : jn < 16 := by have h := inb 1; have h' : jn + 1 ≤ 16 := h; omega
  have e0 : co0 ((Rect.unit (s := S400x16x3) ![0, jn, 0] S400x1x3.size inb).emb (ix3 p q k)) = p :=
    Fin.ext (by show 0 + 1 * p.val = p.val; omega)
  have e1 : co1 ((Rect.unit (s := S400x16x3) ![0, jn, 0] S400x1x3.size inb).emb (ix3 p q k)) = ⟨jn, hj⟩ :=
    Fin.ext (by show jn + 1 * q.val = jn; omega)
  have e2 : co2 ((Rect.unit (s := S400x16x3) ![0, jn, 0] S400x1x3.size inb).emb (ix3 p q k)) = k :=
    Fin.ext (by show 0 + 1 * k.val = k.val; omega)
  rw [ptVec_apply, nb_slice rel jn off hoff hj hs p k]
  unfold ptBlock
  rw [e0, e1, e2]

/-- Neighbour jn's features slab agrees with the features block on the rectangle it is stored through. -/
theorem fc_piece (rel : FVec Ideal S400x48 .f32) (w1top : FVec Ideal S3x256 .bf16) (common : FVec Ideal S400x256 .f32)
    (w2 : FVec Ideal S256x128 .bf16) (b2 : FVec Ideal S1x128 .f32) (w3 : FVec Ideal S128x32 .bf16) (b3 : FVec Ideal S1x32 .f32)
    (jn off : Nat) (hoff : off = 3 * jn)
    (hs : S400x48.Slices ![0, off] S400x3) (inb : ∀ a, (![0, jn, 0] : Fin 3 → Nat) a + S400x1x32.size a ≤ S400x16x32.size a)
    (x : S400x1x32.Idx) :
    fcVec (extractStridedSlice S400x3 ![0, off] rel hs) w1top common w2 b2 w3 b3 x
      = fcBlock rel w1top common w2 b2 w3 b3 ((Rect.unit (s := S400x16x32) ![0, jn, 0] S400x1x32.size inb).emb x) := by
  obtain ⟨p, q, e, rfl⟩ : ∃ (p : Fin 400) (q : Fin 1) (e : Fin 32), x = ix3 p q e := ⟨x 0, x 1, x 2, eq_ix3 x⟩
  have hq : q.val = 0 := by have := q.isLt; omega
  have hj : jn < 16 := by have h := inb 1; have h' : jn + 1 ≤ 16 := h; omega
  have e0 : co0 ((Rect.unit (s := S400x16x32) ![0, jn, 0] S400x1x32.size inb).emb (ix3 p q e)) = p :=
    Fin.ext (by show 0 + 1 * p.val = p.val; omega)
  have e1 : co1 ((Rect.unit (s := S400x16x32) ![0, jn, 0] S400x1x32.size inb).emb (ix3 p q e)) = ⟨jn, hj⟩ :=
    Fin.ext (by show jn + 1 * q.val = jn; omega)
  have e2 : co2 ((Rect.unit (s := S400x16x32) ![0, jn, 0] S400x1x32.size inb).emb (ix3 p q e)) = e :=
    Fin.ext (by show 0 + 1 * e.val = e.val; omega)
  rw [fcVec_apply]
  unfold fcBlock
  rw [e0, e1, e2]
  simp only [nb_slice rel jn off hoff hj hs]

/-! ## The blocks the body leaves -/

/-- The sixteen points slabs leave the points block. -/
theorem out0_10_eq (x0 : Vec Ideal S400x160 .f32) (x1 : Vec Ideal S400x3 .f32) (x2 : Vec Ideal S32x48 .f32) (x3 : Vec Ideal S1x48 .f32)
    (x4 : Vec Ideal S131x256 .f32) (x5 : Vec Ideal S1x256 .f32) (x6 : Vec Ideal S256x128 .f32) (x7 : Vec Ideal S1x128 .f32)
    (x8 : Vec Ideal S128x32 .f32) (x9 : Vec Ideal S1x32 .f32) :
    out0_10 x0 x1 x2 x3 x4 x5 x6 x7 x8 x9 = ptBlock (View.ld x1 r0_1) (k0_pay3 (View.ld x0 r0_0) (View.ld x2 r0_2) (View.ld x3 r0_3)) := by
  funext y
  unfold out0_10
  refine View.canon_apply_of_pieces (Val := Elt Ideal) (e := .f32) (ptBlock (View.ld x1 r0_1) (k0_pay3 (View.ld x0 r0_0) (View.ld x2 r0_2) (View.ld x3 r0_3))) _ ?_ y (cover0_10 _ _ _ _ _ _ _ _ _ _ _ _ _ _ _ _ y)
  intro pc hpc x
  rcases List.mem_cons.mp hpc with rfl | hpc
  · exact pt_piece (View.ld x1 r0_1) (k0_pay3 (View.ld x0 r0_0) (View.ld x2 r0_2) (View.ld x3 r0_3)) 15 45 rfl slices_S400x48_o0_45_S400x3 inb_S400x16x3_S400x1x3_0_15_0 x
  rcases List.mem_cons.mp hpc with rfl | hpc
  · exact pt_piece (View.ld x1 r0_1) (k0_pay3 (View.ld x0 r0_0) (View.ld x2 r0_2) (View.ld x3 r0_3)) 14 42 rfl slices_S400x48_o0_42_S400x3 inb_S400x16x3_S400x1x3_0_14_0 x
  rcases List.mem_cons.mp hpc with rfl | hpc
  · exact pt_piece (View.ld x1 r0_1) (k0_pay3 (View.ld x0 r0_0) (View.ld x2 r0_2) (View.ld x3 r0_3)) 13 39 rfl slices_S400x48_o0_39_S400x3 inb_S400x16x3_S400x1x3_0_13_0 x
  rcases List.mem_cons.mp hpc with rfl | hpc
  · exact pt_piece (View.ld x1 r0_1) (k0_pay3 (View.ld x0 r0_0) (View.ld x2 r0_2) (View.ld x3 r0_3)) 12 36 rfl slices_S400x48_o0_36_S400x3 inb_S400x16x3_S400x1x3_0_12_0 x
  rcases List.mem_cons.mp hpc with rfl | hpc
  · exact pt_piece (View.ld x1 r0_1) (k0_pay3 (View.ld x0 r0_0) (View.ld x2 r0_2) (View.ld x3 r0_3)) 11 33 rfl slices_S400x48_o0_33_S400x3 inb_S400x16x3_S400x1x3_0_11_0 x
  rcases List.mem_cons.mp hpc with rfl | hpc
  · exact pt_piece (View.ld x1 r0_1) (k0_pay3 (View.ld x0 r0_0) (View.ld x2 r0_2) (View.ld x3 r0_3)) 10 30 rfl slices_S400x48_o0_30_S400x3 inb_S400x16x3_S400x1x3_0_10_0 x
  rcases List.mem_cons.mp hpc with rfl | hpc
  · exact pt_piece (View.ld x1 r0_1) (k0_pay3 (View.ld x0 r0_0) (View.ld x2 r0_2) (View.ld x3 r0_3)) 9 27 rfl slices_S400x48_o0_27_S400x3 inb_S400x16x3_S400x1x3_0_9_0 x
  rcases List.mem_cons.mp hpc with rfl | hpc
  · exact pt_piece (View.ld x1 r0_1) (k0_pay3 (View.ld x0 r0_0) (View.ld x2 r0_2) (View.ld x3 r0_3)) 8 24 rfl slices_S400x48_o0_24_S400x3 inb_S400x16x3_S400x1x3_0_8_0 x
  rcases List.mem_cons.mp hpc with rfl | hpc
  · exact pt_piece (View.ld x1 r0_1) (k0_pay3 (View.ld x0 r0_0) (View.ld x2 r0_2) (View.ld x3 r0_3)) 7 21 rfl slices_S400x48_o0_21_S400x3 inb_S400x16x3_S400x1x3_0_7_0 x
  rcases List.mem_cons.mp hpc with rfl | hpc
  · exact pt_piece (View.ld x1 r0_1) (k0_pay3 (View.ld x0 r0_0) (View.ld x2 r0_2) (View.ld x3 r0_3)) 6 18 rfl slices_S400x48_o0_18_S400x3 inb_S400x16x3_S400x1x3_0_6_0 x
  rcases List.mem_cons.mp hpc with rfl | hpc
  · exact pt_piece (View.ld x1 r0_1) (k0_pay3 (View.ld x0 r0_0) (View.ld x2 r0_2) (View.ld x3 r0_3)) 5 15 rfl slices_S400x48_o0_15_S400x3 inb_S400x16x3_S400x1x3_0_5_0 x
  rcases List.mem_cons.mp hpc with rfl | hpc
  · exact pt_piece (View.ld x1 r0_1) (k0_pay3 (View.ld x0 r0_0) (View.ld x2 r0_2) (View.ld x3 r0_3)) 4 12 rfl slices_S400x48_o0_12_S400x3 inb_S400x16x3_S400x1x3_0_4_0 x
  rcases List.mem_cons.mp hpc with rfl | hpc
  · exact pt_piece (View.ld x1 r0_1) (k0_pay3 (View.ld x0 r0_0) (View.ld x2 r0_2) (View.ld x3 r0_3)) 3 9 rfl slices_S400x48_o0_9_S400x3 inb_S400x16x3_S400x1x3_0_3_0 x
  rcases List.mem_cons.mp hpc with rfl | hpc
  · exact pt_piece (View.ld x1 r0_1) (k0_pay3 (View.ld x0 r0_0) (View.ld x2 r0_2) (View.ld x3 r0_3)) 2 6 rfl slices_S400x48_o0_6_S400x3 inb_S400x16x3_S400x1x3_0_2_0 x
  rcases List.mem_cons.mp hpc with rfl | hpc
  · exact pt_piece (View.ld x1 r0_1) (k0_pay3 (View.ld x0 r0_0) (View.ld x2 r0_2) (View.ld x3 r0_3)) 1 3 rfl slices_S400x48_o0_3_S400x3 inb_S400x16x3_S400x1x3_0_1_0 x
  rcases List.mem_cons.mp hpc with rfl | hpc
  · exact pt_piece (View.ld x1 r0_1) (k0_pay3 (View.ld x0 r0_0) (View.ld x2 r0_2) (View.ld x3 r0_3)) 0 0 rfl slices_S400x48_o0_0_S400x3 inb_S400x16x3_S400x1x3_0_0_0 x
  nomatch hpc

/-- The sixteen features slabs leave the features block. -/
theorem out0_11_eq (x0 : Vec Ideal S400x160 .f32) (x1 : Vec Ideal S400x3 .f32) (x2 : Vec Ideal S32x48 .f32) (x3 : Vec Ideal S1x48 .f32)
    (x4 : Vec Ideal S131x256 .f32) (x5 : Vec Ideal S1x256 .f32) (x6 : Vec Ideal S256x128 .f32) (x7 : Vec Ideal S1x128 .f32)
    (x8 : Vec Ideal S128x32 .f32) (x9 : Vec Ideal S1x32 .f32) :
    out0_11 x0 x1 x2 x3 x4 x5 x6 x7 x8 x9 = fcBlock (k0_pay3 (View.ld x0 r0_0) (View.ld x2 r0_2) (View.ld x3 r0_3)) (k0_pay4 (View.ld x4 r0_4)) (k0_pay5 (View.ld x0 r0_0) (View.ld x4 r0_4) (View.ld x5 r0_5)) (k0_pay6 (View.ld x6 r0_6)) (k0_pay7 (View.ld x7 r0_7)) (k0_pay8 (View.ld x8 r0_8)) (k0_pay9 (View.ld x9 r0_9)) := by
  funext y
  unfold out0_11
  refine View.canon_apply_of_pieces (Val := Elt Ideal) (e := .f32) (fcBlock (k0_pay3 (View.ld x0 r0_0) (View.ld x2 r0_2) (View.ld x3 r0_3)) (k0_pay4 (View.ld x4 r0_4)) (k0_pay5 (View.ld x0 r0_0) (View.ld x4 r0_4) (View.ld x5 r0_5)) (k0_pay6 (View.ld x6 r0_6)) (k0_pay7 (View.ld x7 r0_7)) (k0_pay8 (View.ld x8 r0_8)) (k0_pay9 (View.ld x9 r0_9))) _ ?_ y (cover0_11 _ _ _ _ _ _ _ _ _ _ _ _ _ _ _ _ y)
  intro pc hpc x
  rcases List.mem_cons.mp hpc with rfl | hpc
  · exact fc_piece (k0_pay3 (View.ld x0 r0_0) (View.ld x2 r0_2) (View.ld x3 r0_3)) (k0_pay4 (View.ld x4 r0_4)) (k0_pay5 (View.ld x0 r0_0) (View.ld x4 r0_4) (View.ld x5 r0_5)) (k0_pay6 (View.ld x6 r0_6)) (k0_pay7 (View.ld x7 r0_7)) (k0_pay8 (View.ld x8 r0_8)) (k0_pay9 (View.ld x9 r0_9)) 15 45 rfl slices_S400x48_o0_45_S400x3 inb_S400x16x32_S400x1x32_0_15_0 x
  rcases List.mem_cons.mp hpc with rfl | hpc
  · exact fc_piece (k0_pay3 (View.ld x0 r0_0) (View.ld x2 r0_2) (View.ld x3 r0_3)) (k0_pay4 (View.ld x4 r0_4)) (k0_pay5 (View.ld x0 r0_0) (View.ld x4 r0_4) (View.ld x5 r0_5)) (k0_pay6 (View.ld x6 r0_6)) (k0_pay7 (View.ld x7 r0_7)) (k0_pay8 (View.ld x8 r0_8)) (k0_pay9 (View.ld x9 r0_9)) 14 42 rfl slices_S400x48_o0_42_S400x3 inb_S400x16x32_S400x1x32_0_14_0 x
  rcases List.mem_cons.mp hpc with rfl | hpc
  · exact fc_piece (k0_pay3 (View.ld x0 r0_0) (View.ld x2 r0_2) (View.ld x3 r0_3)) (k0_pay4 (View.ld x4 r0_4)) (k0_pay5 (View.ld x0 r0_0) (View.ld x4 r0_4) (View.ld x5 r0_5)) (k0_pay6 (View.ld x6 r0_6)) (k0_pay7 (View.ld x7 r0_7)) (k0_pay8 (View.ld x8 r0_8)) (k0_pay9 (View.ld x9 r0_9)) 13 39 rfl slices_S400x48_o0_39_S400x3 inb_S400x16x32_S400x1x32_0_13_0 x
  rcases List.mem_cons.mp hpc with rfl | hpc
  · exact fc_piece (k0_pay3 (View.ld x0 r0_0) (View.ld x2 r0_2) (View.ld x3 r0_3)) (k0_pay4 (View.ld x4 r0_4)) (k0_pay5 (View.ld x0 r0_0) (View.ld x4 r0_4) (View.ld x5 r0_5)) (k0_pay6 (View.ld x6 r0_6)) (k0_pay7 (View.ld x7 r0_7)) (k0_pay8 (View.ld x8 r0_8)) (k0_pay9 (View.ld x9 r0_9)) 12 36 rfl slices_S400x48_o0_36_S400x3 inb_S400x16x32_S400x1x32_0_12_0 x
  rcases List.mem_cons.mp hpc with rfl | hpc
  · exact fc_piece (k0_pay3 (View.ld x0 r0_0) (View.ld x2 r0_2) (View.ld x3 r0_3)) (k0_pay4 (View.ld x4 r0_4)) (k0_pay5 (View.ld x0 r0_0) (View.ld x4 r0_4) (View.ld x5 r0_5)) (k0_pay6 (View.ld x6 r0_6)) (k0_pay7 (View.ld x7 r0_7)) (k0_pay8 (View.ld x8 r0_8)) (k0_pay9 (View.ld x9 r0_9)) 11 33 rfl slices_S400x48_o0_33_S400x3 inb_S400x16x32_S400x1x32_0_11_0 x
  rcases List.mem_cons.mp hpc with rfl | hpc
  · exact fc_piece (k0_pay3 (View.ld x0 r0_0) (View.ld x2 r0_2) (View.ld x3 r0_3)) (k0_pay4 (View.ld x4 r0_4)) (k0_pay5 (View.ld x0 r0_0) (View.ld x4 r0_4) (View.ld x5 r0_5)) (k0_pay6 (View.ld x6 r0_6)) (k0_pay7 (View.ld x7 r0_7)) (k0_pay8 (View.ld x8 r0_8)) (k0_pay9 (View.ld x9 r0_9)) 10 30 rfl slices_S400x48_o0_30_S400x3 inb_S400x16x32_S400x1x32_0_10_0 x
  rcases List.mem_cons.mp hpc with rfl | hpc
  · exact fc_piece (k0_pay3 (View.ld x0 r0_0) (View.ld x2 r0_2) (View.ld x3 r0_3)) (k0_pay4 (View.ld x4 r0_4)) (k0_pay5 (View.ld x0 r0_0) (View.ld x4 r0_4) (View.ld x5 r0_5)) (k0_pay6 (View.ld x6 r0_6)) (k0_pay7 (View.ld x7 r0_7)) (k0_pay8 (View.ld x8 r0_8)) (k0_pay9 (View.ld x9 r0_9)) 9 27 rfl slices_S400x48_o0_27_S400x3 inb_S400x16x32_S400x1x32_0_9_0 x
  rcases List.mem_cons.mp hpc with rfl | hpc
  · exact fc_piece (k0_pay3 (View.ld x0 r0_0) (View.ld x2 r0_2) (View.ld x3 r0_3)) (k0_pay4 (View.ld x4 r0_4)) (k0_pay5 (View.ld x0 r0_0) (View.ld x4 r0_4) (View.ld x5 r0_5)) (k0_pay6 (View.ld x6 r0_6)) (k0_pay7 (View.ld x7 r0_7)) (k0_pay8 (View.ld x8 r0_8)) (k0_pay9 (View.ld x9 r0_9)) 8 24 rfl slices_S400x48_o0_24_S400x3 inb_S400x16x32_S400x1x32_0_8_0 x
  rcases List.mem_cons.mp hpc with rfl | hpc
  · exact fc_piece (k0_pay3 (View.ld x0 r0_0) (View.ld x2 r0_2) (View.ld x3 r0_3)) (k0_pay4 (View.ld x4 r0_4)) (k0_pay5 (View.ld x0 r0_0) (View.ld x4 r0_4) (View.ld x5 r0_5)) (k0_pay6 (View.ld x6 r0_6)) (k0_pay7 (View.ld x7 r0_7)) (k0_pay8 (View.ld x8 r0_8)) (k0_pay9 (View.ld x9 r0_9)) 7 21 rfl slices_S400x48_o0_21_S400x3 inb_S400x16x32_S400x1x32_0_7_0 x
  rcases List.mem_cons.mp hpc with rfl | hpc
  · exact fc_piece (k0_pay3 (View.ld x0 r0_0) (View.ld x2 r0_2) (View.ld x3 r0_3)) (k0_pay4 (View.ld x4 r0_4)) (k0_pay5 (View.ld x0 r0_0) (View.ld x4 r0_4) (View.ld x5 r0_5)) (k0_pay6 (View.ld x6 r0_6)) (k0_pay7 (View.ld x7 r0_7)) (k0_pay8 (View.ld x8 r0_8)) (k0_pay9 (View.ld x9 r0_9)) 6 18 rfl slices_S400x48_o0_18_S400x3 inb_S400x16x32_S400x1x32_0_6_0 x
  rcases List.mem_cons.mp hpc with rfl | hpc
  · exact fc_piece (k0_pay3 (View.ld x0 r0_0) (View.ld x2 r0_2) (View.ld x3 r0_3)) (k0_pay4 (View.ld x4 r0_4)) (k0_pay5 (View.ld x0 r0_0) (View.ld x4 r0_4) (View.ld x5 r0_5)) (k0_pay6 (View.ld x6 r0_6)) (k0_pay7 (View.ld x7 r0_7)) (k0_pay8 (View.ld x8 r0_8)) (k0_pay9 (View.ld x9 r0_9)) 5 15 rfl slices_S400x48_o0_15_S400x3 inb_S400x16x32_S400x1x32_0_5_0 x
  rcases List.mem_cons.mp hpc with rfl | hpc
  · exact fc_piece (k0_pay3 (View.ld x0 r0_0) (View.ld x2 r0_2) (View.ld x3 r0_3)) (k0_pay4 (View.ld x4 r0_4)) (k0_pay5 (View.ld x0 r0_0) (View.ld x4 r0_4) (View.ld x5 r0_5)) (k0_pay6 (View.ld x6 r0_6)) (k0_pay7 (View.ld x7 r0_7)) (k0_pay8 (View.ld x8 r0_8)) (k0_pay9 (View.ld x9 r0_9)) 4 12 rfl slices_S400x48_o0_12_S400x3 inb_S400x16x32_S400x1x32_0_4_0 x
  rcases List.mem_cons.mp hpc with rfl | hpc
  · exact fc_piece (k0_pay3 (View.ld x0 r0_0) (View.ld x2 r0_2) (View.ld x3 r0_3)) (k0_pay4 (View.ld x4 r0_4)) (k0_pay5 (View.ld x0 r0_0) (View.ld x4 r0_4) (View.ld x5 r0_5)) (k0_pay6 (View.ld x6 r0_6)) (k0_pay7 (View.ld x7 r0_7)) (k0_pay8 (View.ld x8 r0_8)) (k0_pay9 (View.ld x9 r0_9)) 3 9 rfl slices_S400x48_o0_9_S400x3 inb_S400x16x32_S400x1x32_0_3_0 x
  rcases List.mem_cons.mp hpc with rfl | hpc
  · exact fc_piece (k0_pay3 (View.ld x0 r0_0) (View.ld x2 r0_2) (View.ld x3 r0_3)) (k0_pay4 (View.ld x4 r0_4)) (k0_pay5 (View.ld x0 r0_0) (View.ld x4 r0_4) (View.ld x5 r0_5)) (k0_pay6 (View.ld x6 r0_6)) (k0_pay7 (View.ld x7 r0_7)) (k0_pay8 (View.ld x8 r0_8)) (k0_pay9 (View.ld x9 r0_9)) 2 6 rfl slices_S400x48_o0_6_S400x3 inb_S400x16x32_S400x1x32_0_2_0 x
  rcases List.mem_cons.mp hpc with rfl | hpc
  · exact fc_piece (k0_pay3 (View.ld x0 r0_0) (View.ld x2 r0_2) (View.ld x3 r0_3)) (k0_pay4 (View.ld x4 r0_4)) (k0_pay5 (View.ld x0 r0_0) (View.ld x4 r0_4) (View.ld x5 r0_5)) (k0_pay6 (View.ld x6 r0_6)) (k0_pay7 (View.ld x7 r0_7)) (k0_pay8 (View.ld x8 r0_8)) (k0_pay9 (View.ld x9 r0_9)) 1 3 rfl slices_S400x48_o0_3_S400x3 inb_S400x16x32_S400x1x32_0_1_0 x
  rcases List.mem_cons.mp hpc with rfl | hpc
  · exact fc_piece (k0_pay3 (View.ld x0 r0_0) (View.ld x2 r0_2) (View.ld x3 r0_3)) (k0_pay4 (View.ld x4 r0_4)) (k0_pay5 (View.ld x0 r0_0) (View.ld x4 r0_4) (View.ld x5 r0_5)) (k0_pay6 (View.ld x6 r0_6)) (k0_pay7 (View.ld x7 r0_7)) (k0_pay8 (View.ld x8 r0_8)) (k0_pay9 (View.ld x9 r0_9)) 0 0 rfl slices_S400x48_o0_0_S400x3 inb_S400x16x32_S400x1x32_0_0_0 x
  nomatch hpc

/-! ## The blocks in the decoder's own terms -/

theorem hz2 : (![0, 0] : Fin 2 → Nat) = fun _ => 0 := funext fun a => by fin_cases a <;> rfl

/-- The points block at (p, j, k) is the decoder's output point of block row p, neighbour j. -/
theorem ptBlock_at (x0 : Vec Ideal S400x160 .f32) (x1 : Vec Ideal S400x3 .f32) (x2 : Vec Ideal S32x48 .f32) (x3 : Vec Ideal S1x48 .f32)
    (p : Fin 400) (j : Fin 16) (k : Fin 3) :
    ptBlock (View.ld x1 r0_1) (k0_pay3 (View.ld x0 r0_0) (View.ld x2 r0_2) (View.ld x3 r0_3)) (ix3 p j k)
      = ptRow (row x1 p) (row x0 p) (mat x2) (fun q => x3 (ix2 ⟨0, Nat.one_pos⟩ q)) j k := by
  rw [View.ld_unit_zero (S := S400x3) hz2, View.ld_unit_zero (S := S400x160) hz2, View.ld_unit_zero (S := S32x48) hz2,
    View.ld_unit_zero (S := S1x48) hz2]
  unfold ptBlock ptRow
  show x1 (ix2 p k) + k0_pay3 (F := Ideal) x0 x2 x3 (ix2 p (nb j k)) * quarter = _
  rw [rel_apply]
  rfl

/-- The features block at (p, j, e) is the decoder's perceptron of block row p, neighbour j, first layer in the
    shared-part-first spelling. -/
theorem fcBlock_at (x0 : Vec Ideal S400x160 .f32) (x2 : Vec Ideal S32x48 .f32) (x3 : Vec Ideal S1x48 .f32)
    (x4 : Vec Ideal S131x256 .f32) (x5 : Vec Ideal S1x256 .f32) (x6 : Vec Ideal S256x128 .f32) (x7 : Vec Ideal S1x128 .f32)
    (x8 : Vec Ideal S128x32 .f32) (x9 : Vec Ideal S1x32 .f32) (p : Fin 400) (j : Fin 16) (e : Fin 32) :
    fcBlock (k0_pay3 (View.ld x0 r0_0) (View.ld x2 r0_2) (View.ld x3 r0_3)) (k0_pay4 (View.ld x4 r0_4)) (k0_pay5 (View.ld x0 r0_0) (View.ld x4 r0_4) (View.ld x5 r0_5)) (k0_pay6 (View.ld x6 r0_6)) (k0_pay7 (View.ld x7 r0_7)) (k0_pay8 (View.ld x8 r0_8)) (k0_pay9 (View.ld x9 r0_9)) (ix3 p j e)
      = mlp (lin1Split (row x0 p) (mat x2) (fun q => x3 (ix2 ⟨0, Nat.one_pos⟩ q)) (mat x4) (fun c => x5 (ix2 ⟨0, Nat.one_pos⟩ c)) j)
          (mat x6) (fun d => x7 (ix2 ⟨0, Nat.one_pos⟩ d)) (mat x8) (fun e => x9 (ix2 ⟨0, Nat.one_pos⟩ e)) e := by
  rw [View.ld_unit_zero (S := S400x160) hz2, View.ld_unit_zero (S := S32x48) hz2, View.ld_unit_zero (S := S1x48) hz2,
    View.ld_unit_zero (S := S131x256) hz2, View.ld_unit_zero (S := S1x256) hz2, View.ld_unit_zero (S := S256x128) hz2,
    View.ld_unit_zero (S := S1x128) hz2, View.ld_unit_zero (S := S128x32) hz2, View.ld_unit_zero (S := S1x32) hz2]
  have h7 : k0_pay7 (F := Ideal) x7 = x7 := shapeCast_self x7 shapeCasts_S1x128_S1x128
  have h9 : k0_pay9 (F := Ideal) x9 = x9 := shapeCast_self x9 shapeCasts_S1x32_S1x32
  have hl : (fun c : Fin 256 => k0_pay5 (F := Ideal) x0 x4 x5 (ix2 p c)
        + ∑ k : Fin 3, k0_pay3 (F := Ideal) x0 x2 x3 (ix2 p (nb j k)) * k0_pay4 (F := Ideal) x4 (ix2 k c))
      = lin1Split (row x0 p) (mat x2) (fun q => x3 (ix2 ⟨0, Nat.one_pos⟩ q)) (mat x4) (fun c => x5 (ix2 ⟨0, Nat.one_pos⟩ c)) j := by
    funext c
    unfold lin1Split
    rw [common_apply]
    refine congrArg (_ + ·) (Finset.sum_congr rfl fun k _ => ?_)
    rw [rel_apply, w1top_apply]
  unfold fcBlock
  show mlp (fun c : Fin 256 => k0_pay5 (F := Ideal) x0 x4 x5 (ix2 p c)
        + ∑ k : Fin 3, k0_pay3 (F := Ideal) x0 x2 x3 (ix2 p (nb j k)) * k0_pay4 (F := Ideal) x4 (ix2 k c))
      (fun c d => x6 (ix2 c d)) (fun d => k0_pay7 (F := Ideal) x7 (ix2 ⟨0, Nat.one_pos⟩ d))
      (fun d e => x8 (ix2 d e)) (fun e => k0_pay9 (F := Ideal) x9 (ix2 ⟨0, Nat.one_pos⟩ e)) e = _
  rw [hl, h7, h9]
  rfl

end Cert.KernelIdeal.Block

end
-- ==== Proof.KernelArray.lean ====
/-
  From blocks to whole arrays, and through the reshapes after the region.

  Grid point t (of 125) works on rows 400 t .. 400 t + 399: its feature and anchor blocks are those rows of the two
  arrays, its eight weight and bias blocks are the whole arrays, and its two output blocks are rows 400 t .. of the
  50000 x 16 x 3 and 50000 x 16 x 32 results. What point t writes back is therefore block t of ONE function of the
  arrays (the decoder's point and perceptron of row n, neighbour j), and the 125 blocks tile the results, so the
  results hold those functions everywhere. The two reshapes after the region merge the row and neighbour axes:
  output row i is row i / 16, neighbour i % 16.
-/
import proofs.«151593_j45389214384421_1_alg».proof.Proof.KernelBlock
import Idealize.ShloMosaic.Lib.StableHlo.Run

set_option maxRecDepth 16384

noncomputable section

namespace Cert.KernelIdeal.ArrayValue

open Cert.KernelIdeal Cert.KernelIdeal.Gen Cert.KernelIdeal.Block Idealize.ShloMosaic Idealize.ShloMosaic.TcCoe
open Idealize.ShloMosaic.ValueIdx Cert.Decoder Idealize.SL.Sem
open Idealize.ShloMosaic.Pipeline (Dat Cfg Window)

variable (m : (ℓ : Loc nD τ sig) → Buf (Elt Ideal) ℓ) (ρ : Dev nD → PrngReg)

/-! ## Which block each window holds at point t -/

/-- The printed index maps, decided over the grid: the two row-tiled inputs and the two outputs sit at block row t,
    every other window at its whole array. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 3) = t.val ∧ win0_10.index t (1 : Fin 3) = 0 ∧ win0_10.index t (2 : Fin 3) = 0
    ∧ win0_11.index t (0 : Fin 3) = t.val ∧ win0_11.index t (1 : Fin 3) = 0 ∧ win0_11.index t (2 : Fin 3) = 0 :=
  (by decide +kernel : ∀ t : Fin grid0.N, _)

theorem t_lt (t : Fin cfg0.N) : t.val < 125 := t.isLt

/-- Array row 400 t + p. -/
def arow (t : Fin cfg0.N) (p : Fin 400) : Fin 50000 := ⟨400 * t.val + p.val, by have := t_lt t; have := p.isLt; omega⟩

/-- The feature block's row p is array row 400 t + p. -/
theorem fblk_row (c : Dev nD) (t : Fin cfg0.N) (p : Fin 400) :
    row (iblk m c 0 t : Vec Ideal S400x160 .f32) p = row (V m c main_arg1 : Vec Ideal S50000x160 .f32) (arow t p) := by
  funext a
  obtain ⟨e0, e1, -⟩ := idx_facts t
  show V m c main_arg1 (((cfg0.win 0).blk t).view.emb (ix2 p a)) = V m c main_arg1 (ix2 (arow t p) a)
  refine congrArg (V m c main_arg1) (funext fun b => Fin.ext ?_)
  match b with
  | ⟨0, _⟩ => show win0_0.index t (0 : Fin 2) * 400 + 1 * p.val = 400 * t.val + p.val; omega
  | ⟨1, _⟩ => show win0_0.index t (1 : Fin 2) * 160 + 1 * a.val = a.val; omega

/-- The anchor block's row p is array row 400 t + p. -/
theorem pblk_row (c : Dev nD) (t : Fin cfg0.N) (p : Fin 400) :
    row (iblk m c 1 t : Vec Ideal S400x3 .f32) p = row (V m c main_arg0 : Vec Ideal S50000x3 .f32) (arow t p) := by
  funext a
  obtain ⟨-, -, e0, e1, -⟩ := idx_facts t
  show V m c main_arg0 (((cfg0.win 1).blk t).view.emb (ix2 p a)) = V m c main_arg0 (ix2 (arow t p) a)
  refine congrArg (V m c main_arg0) (funext fun b => Fin.ext ?_)
  match b with
  | ⟨0, _⟩ => show win0_1.index t (0 : Fin 2) * 400 + 1 * p.val = 400 * t.val + p.val; omega
  | ⟨1, _⟩ => show win0_1.index t (1 : Fin 2) * 3 + 1 * a.val = a.val; omega

/-- A window whose block index is (0, 0) at every point and whose block is the whole array holds the array. -/
theorem blk2 (c : Dev nD) (t : Fin cfg0.N) : (iblk m c 2 t : Vec Ideal S32x48 .f32) = V m c main_arg3 := by
  funext y
  obtain ⟨-, -, -, -, e0, e1, -⟩ := idx_facts t
  show V m c main_arg3 (((cfg0.win 2).blk t).view.emb y) = V m c main_arg3 y
  refine congrArg (V m c main_arg3) (funext fun b => Fin.ext ?_)
  match b with
  | ⟨0, _⟩ => show win0_2.index t (0 : Fin 2) * 32 + 1 * (y 0).val = (y 0).val; omega
  | ⟨1, _⟩ => show win0_2.index t (1 : Fin 2) * 48 + 1 * (y 1).val = (y 1).val; omega

theorem blk3 (c : Dev nD) (t : Fin cfg0.N) : (iblk m c 3 t : Vec Ideal S1x48 .f32) = V m c main_v0 := by
  funext y
  obtain ⟨-, -, -, -, -, -, e0, e1, -⟩ := idx_facts t
  show V m c main_v0 (((cfg0.win 3).blk t).view.emb y) = V m c main_v0 y
  refine congrArg (V m c main_v0) (funext fun b => Fin.ext ?_)
  match b with
  | ⟨0, _⟩ => show win0_3.index t (0 : Fin 2) * 1 + 1 * (y 0).val = (y 0).val; omega
  | ⟨1, _⟩ => show win0_3.index t (1 : Fin 2) * 48 + 1 * (y 1).val = (y 1).val; omega

theorem blk4 (c : Dev nD) (t : Fin cfg0.N) : (iblk m c 4 t : Vec Ideal S131x256 .f32) = V m c main_arg5 := by
  funext y
  obtain ⟨-, -, -, -, -, -, -, -, e0, e1, -⟩ := idx_facts t
  show V m c main_arg5 (((cfg0.win 4).blk t).view.emb y) = V m c main_arg5 y
  refine congrArg (V m c main_arg5) (funext fun b => Fin.ext ?_)
  match b with
  | ⟨0, _⟩ => show win0_4.index t (0 : Fin 2) * 131 + 1 * (y 0).val = (y 0).val; omega
  | ⟨1, _⟩ => show win0_4.index t (1 : Fin 2) * 256 + 1 * (y 1).val = (y 1).val; omega

theorem blk5 (c : Dev nD) (t : Fin cfg0.N) : (iblk m c 5 t : Vec Ideal S1x256 .f32) = V m c main_v1 := by
  funext y
  obtain ⟨-, -, -, -, -, -, -, -, -, -, e0, e1, -⟩ := idx_facts t
  show V m c main_v1 (((cfg0.win 5).blk t).view.emb y) = V m c main_v1 y
  refine congrArg (V m c main_v1) (funext fun b => Fin.ext ?_)
  match b with
  | ⟨0, _⟩ => show win0_5.index t (0 : Fin 2) * 1 + 1 * (y 0).val = (y 0).val; omega
  | ⟨1, _⟩ => show win0_5.index t (1 : Fin 2) * 256 + 1 * (y 1).val = (y 1).val; omega

theorem blk6 (c : Dev nD) (t : Fin cfg0.N) : (iblk m c 6 t : Vec Ideal S256x128 .f32) = V m c main_arg7 := by
  funext y
  obtain ⟨-, -, -, -, -, -, -, -, -, -, -, -, e0, e1, -⟩ := idx_facts t
  show V m c main_arg7 (((cfg0.win 6).blk t).view.emb y) = V m c main_arg7 y
  refine congrArg (V m c main_arg7) (funext fun b => Fin.ext ?_)
  match b with
  | ⟨0, _⟩ => show win0_6.index t (0 : Fin 2) * 256 + 1 * (y 0).val = (y 0).val; omega
  | ⟨1, _⟩ => show win0_6.index t (1 : Fin 2) * 128 + 1 * (y 1).val = (y 1).val; omega

theorem blk7 (c : Dev nD) (t : Fin cfg0.N) : (iblk m c 7 t : Vec Ideal S1x128 .f32) = V m c main_v2 := by
  funext y
  obtain ⟨-, -, -, -, -, -, -, -, -, -, -, -, -, -, e0, e1, -⟩ := idx_facts t
  show V m c main_v2 (((cfg0.win 7).blk t).view.emb y) = V m c main_v2 y
  refine congrArg (V m c main_v2) (funext fun b => Fin.ext ?_)
  match b with
  | ⟨0, _⟩ => show win0_7.index t (0 : Fin 2) * 1 + 1 * (y 0).val = (y 0).val; omega
  | ⟨1, _⟩ => show win0_7.index t (1 : Fin 2) * 128 + 1 * (y 1).val = (y 1).val; omega

theorem blk8 (c : Dev nD) (t : Fin cfg0.N) : (iblk m c 8 t : Vec Ideal S128x32 .f32) = V m c main_arg9 := by
  funext y
  obtain ⟨-, -, -, -, -, -, -, -, -, -, -, -, -, -, -, -, e0, e1, -⟩ := idx_facts t
  show V m c main_arg9 (((cfg0.win 8).blk t).view.emb y) = V m c main_arg9 y
  refine congrArg (V m c main_arg9) (funext fun b => Fin.ext ?_)
  match b with
  | ⟨0, _⟩ => show win0_8.index t (0 : Fin 2) * 128 + 1 * (y 0).val = (y 0).val; omega
  | ⟨1, _⟩ => show win0_8.index t (1 : Fin 2) * 32 + 1 * (y 1).val = (y 1).val; omega

theorem blk9 (c : Dev nD) (t : Fin cfg0.N) : (iblk m c 9 t : Vec Ideal S1x32 .f32) = V m c main_v3 := by
  funext y
  obtain ⟨-, -, -, -, -, -, -, -, -, -, -, -, -, -, -, -, -, -, e0, e1, -⟩ := idx_facts t
  show V m c main_v3 (((cfg0.win 9).blk t).view.emb y) = V m c main_v3 y
  refine congrArg (V m c main_v3) (funext fun b => Fin.ext ?_)
  match b with
  | ⟨0, _⟩ => show win0_9.index t (0 : Fin 2) * 1 + 1 * (y 0).val = (y 0).val; omega
  | ⟨1, _⟩ => show win0_9.index t (1 : Fin 2) * 32 + 1 * (y 1).val = (y 1).val; omega

/-! ## The two result arrays of the region as functions of the arrays it finds -/

/-- The 50000 x 16 x 3 result at (n, j, k): the decoder's output point of row n, neighbour j. -/
def ptsArr (c : Dev nD) : S50000x16x3.Idx → EReal := fun i =>
  ptRow (row (V m c main_arg0 : Vec Ideal S50000x3 .f32) (co0 i)) (row (V m c main_arg1 : Vec Ideal S50000x160 .f32) (co0 i))
    (mat (V m c main_arg3 : Vec Ideal S32x48 .f32)) (fun q => (V m c main_v0 : Vec Ideal S1x48 .f32) (ix2 ⟨0, Nat.one_pos⟩ q)) (co1 i) (co2 i)

/-- The 50000 x 16 x 32 result at (n, j, e): the decoder's perceptron of row n, neighbour j. -/
def fcArr (c : Dev nD) : S50000x16x32.Idx → EReal := fun i =>
  mlp (lin1Split (row (V m c main_arg1 : Vec Ideal S50000x160 .f32) (co0 i)) (mat (V m c main_arg3 : Vec Ideal S32x48 .f32))
      (fun q => (V m c main_v0 : Vec Ideal S1x48 .f32) (ix2 ⟨0, Nat.one_pos⟩ q)) (mat (V m c main_arg5 : Vec Ideal S131x256 .f32))
      (fun q => (V m c main_v1 : Vec Ideal S1x256 .f32) (ix2 ⟨0, Nat.one_pos⟩ q)) (co1 i))
    (mat (V m c main_arg7 : Vec Ideal S256x128 .f32)) (fun q => (V m c main_v2 : Vec Ideal S1x128 .f32) (ix2 ⟨0, Nat.one_pos⟩ q))
    (mat (V m c main_arg9 : Vec Ideal S128x32 .f32)) (fun q => (V m c main_v3 : Vec Ideal S1x32 .f32) (ix2 ⟨0, Nat.one_pos⟩ q)) (co2 i)

/-- What point t writes back to the points result is block t of ptsArr. -/
theorem flushed10_eq (c : Dev nD) (t : Fin cfg0.N) :
    (dats m 0 c).flushed 10 t = ((cfg0.win 10).blk t).view.read (Elt Ideal) (ptsArr m c) := by
  show (cfg0.win 10).cut (grid0.coords t) ((dats m 0 c).after 10 t) = _
  rw [after0_10, out0_10_eq]
  funext y
  obtain ⟨p, j, k, rfl⟩ : ∃ (p : Fin 400) (j : Fin 16) (k : Fin 3), y = ix3 p j k := ⟨y 0, y 1, y 2, eq_ix3 y⟩
  obtain ⟨-, -, -, -, -, -, -, -, -, -, -, -, -, -, -, -, -, -, -, -, e0, e1, e2, -⟩ := idx_facts t
  refine (ptBlock_at (iblk m c 0 t) (iblk m c 1 t) (iblk m c 2 t) (iblk m c 3 t) p j k).trans ?_
  rw [fblk_row, pblk_row, blk2, blk3]
  show _ = ptsArr m c (((cfg0.win 10).blk t).view.emb (ix3 p j k))
  unfold ptsArr
  have c0 : co0 (((cfg0.win 10).blk t).view.emb (ix3 p j k)) = arow t p :=
    Fin.ext (by show win0_10.index t (0 : Fin 3) * 400 + 1 * p.val = 400 * t.val + p.val; omega)
  have c1 : co1 (((cfg0.win 10).blk t).view.emb (ix3 p j k)) = j :=
    Fin.ext (by show win0_10.index t (1 : Fin 3) * 16 + 1 * j.val = j.val; omega)
  have c2 : co2 (((cfg0.win 10).blk t).view.emb (ix3 p j k)) = k :=
    Fin.ext (by show win0_10.index t (2 : Fin 3) * 3 + 1 * k.val = k.val; omega)
  rw [c0, c1, c2]

/-- What point t writes back to the features result is block t of fcArr. -/
theorem flushed11_eq (c : Dev nD) (t : Fin cfg0.N) :
    (dats m 0 c).flushed 11 t = ((cfg0.win 11).blk t).view.read (Elt Ideal) (fcArr m c) := by
  show (cfg0.win 11).cut (grid0.coords t) ((dats m 0 c).after 11 t) = _
  rw [after0_11, out0_11_eq]
  funext y
  obtain ⟨p, j, e, rfl⟩ : ∃ (p : Fin 400) (j : Fin 16) (e : Fin 32), y = ix3 p j e := ⟨y 0, y 1, y 2, eq_ix3 y⟩
  obtain ⟨-, -, -, -, -, -, -, -, -, -, -, -, -, -, -, -, -, -, -, -, -, -, -, e0, e1, e2⟩ := idx_facts t
  refine (fcBlock_at (iblk m c 0 t) (iblk m c 2 t) (iblk m c 3 t) (iblk m c 4 t) (iblk m c 5 t) (iblk m c 6 t) (iblk m c 7 t)
    (iblk m c 8 t) (iblk m c 9 t) p j e).trans ?_
  rw [fblk_row, blk2, blk3, blk4, blk5, blk6, blk7, blk8, blk9]
  show _ = fcArr m c (((cfg0.win 11).blk t).view.emb (ix3 p j e))
  unfold fcArr
  have c0 : co0 (((cfg0.win 11).blk t).view.emb (ix3 p j e)) = arow t p :=
    Fin.ext (by show win0_11.index t (0 : Fin 3) * 400 + 1 * p.val = 400 * t.val + p.val; omega)
  have c1 : co1 (((cfg0.win 11).blk t).view.emb (ix3 p j e)) = j :=
    Fin.ext (by show win0_11.index t (1 : Fin 3) * 16 + 1 * j.val = j.val; omega)
  have c2 : co2 (((cfg0.win 11).blk t).view.emb (ix3 p j e)) = e :=
    Fin.ext (by show win0_11.index t (2 : Fin 3) * 32 + 1 * e.val = e.val; omega)
  rw [c0, c1, c2]

/-! ## The 125 blocks tile each result -/

theorem mem_blk10 (t : Fin cfg0.N) (i : S50000x16x3.Idx) :
    i ∈ ((cfg0.win 10).blk t).view.set ↔ ∀ a : Fin 3, win0_10.index t a * S400x16x3.size a ≤ (i a).val ∧ (i a).val < win0_10.index t a * S400x16x3.size a + S400x16x3.size a := by
  show i ∈ ((View.whole main_v4_0).slice (win0_10.rect t)).set ↔ _
  rw [View.set_slice_whole, Rect.mem_set_unit]
  exact Iff.rfl

theorem mem_blk11 (t : Fin cfg0.N) (i : S50000x16x32.Idx) :
    i ∈ ((cfg0.win 11).blk t).view.set ↔ ∀ a : Fin 3, win0_11.index t a * S400x16x32.size a ≤ (i a).val ∧ (i a).val < win0_11.index t a * S400x16x32.size a + S400x16x32.size a := by
  show i ∈ ((View.whole main_v4_1).slice (win0_11.rect t)).set ↔ _
  rw [View.set_slice_whole, Rect.mem_set_unit]
  exact Iff.rfl

/-- The point that covers row n is n / 400. -/
def ptOf (n : Nat) (h : n < 50000) : Fin cfg0.N := ⟨n / 400, by show n / 400 < 125; omega⟩

theorem cover10 (i : S50000x16x3.Idx) : ∃ t : Fin cfg0.N, (cfg0.win 10).flush t = true ∧ i ∈ ((cfg0.win 10).blk t).view.set := by
  have h0 : (i 0).val < 50000 := (i 0).isLt
  have h1 : (i 1).val < 16 := (i 1).isLt
  have h2 : (i 2).val < 3 := (i 2).isLt
  obtain ⟨-, -, -, -, -, -, -, -, -, -, -, -, -, -, -, -, -, -, -, -, e0, e1, e2, -⟩ := idx_facts (ptOf (i 0).val h0)
  have ht : (ptOf (i 0).val h0).val = (i 0).val / 400 := rfl
  refine ⟨ptOf (i 0).val h0, flush0_10 _, ?_⟩
  rw [mem_blk10]
  intro a
  match a with
  | ⟨0, _⟩ => show win0_10.index (ptOf (i 0).val h0) (0 : Fin 3) * 400 ≤ (i 0).val ∧ (i 0).val < win0_10.index (ptOf (i 0).val h0) (0 : Fin 3) * 400 + 400; omega
  | ⟨1, _⟩ => show win0_10.index (ptOf (i 0).val h0) (1 : Fin 3) * 16 ≤ (i 1).val ∧ (i 1).val < win0_10.index (ptOf (i 0).val h0) (1 : Fin 3) * 16 + 16; omega
  | ⟨2, _⟩ => show win0_10.index (ptOf (i 0).val h0) (2 : Fin 3) * 3 ≤ (i 2).val ∧ (i 2).val < win0_10.index (ptOf (i 0).val h0) (2 : Fin 3) * 3 + 3; omega

theorem cover11 (i : S50000x16x32.Idx) : ∃ t : Fin cfg0.N, (cfg0.win 11).flush t = true ∧ i ∈ ((cfg0.win 11).blk t).view.set := by
  have h0 : (i 0).val < 50000 := (i 0).isLt
  have h1 : (i 1).val < 16 := (i 1).isLt
  have h2 : (i 2).val < 32 := (i 2).isLt
  obtain ⟨-, -, -, -, -, -, -, -, -, -, -, -, -, -, -, -, -, -, -, -, -, -, -, e0, e1, e2⟩ := idx_facts (ptOf (i 0).val h0)
  have ht : (ptOf (i 0).val h0).val = (i 0).val / 400 := rfl
  refine ⟨ptOf (i 0).val h0, flush0_11 _, ?_⟩
  rw [mem_blk11]
  intro a
  match a with
  | ⟨0, _⟩ => show win0_11.index (ptOf (i 0).val h0) (0 : Fin 3) * 400 ≤ (i 0).val ∧ (i 0).val < win0_11.index (ptOf (i 0).val h0) (0 : Fin 3) * 400 + 400; omega
  | ⟨1, _⟩ => show win0_11.index (ptOf (i 0).val h0) (1 : Fin 3) * 16 ≤ (i 1).val ∧ (i 1).val < win0_11.index (ptOf (i 0).val h0) (1 : Fin 3) * 16 + 16; omega
  | ⟨2, _⟩ => show win0_11.index (ptOf (i 0).val h0) (2 : Fin 3) * 32 ≤ (i 2).val ∧ (i 2).val < win0_11.index (ptOf (i 0).val h0) (2 : Fin 3) * 32 + 32; omega

/-- The points result after the region. -/
theorem final10 (c : Dev nD) : (dats m 0 c).arrAt 10 cfg0.N = ptsArr m c :=
  (dats m 0 c).arrAt_eq_of_cover 10 (ptsArr m c) (fun t _ => flushed10_eq m c t) cover10

/-- The features result after the region. -/
theorem final11 (c : Dev nD) : (dats m 0 c).arrAt 11 cfg0.N = fcArr m c :=
  (dats m 0 c).arrAt_eq_of_cover 11 (fcArr m c) (fun t _ => flushed11_eq m c t) cover11

end Cert.KernelIdeal.ArrayValue

end
-- ==== Proof.KernelRun.lean ====
/-
  The kernel's run with its three results named.

  Before the region four bias vectors are reshaped to one-row arrays; after it the two results are reshaped from
  (row, neighbour, column) to (16 row + neighbour, column), and the batch vector is repeated sixteen times. Reading
  those reshapes at an index turns the region's two result functions into the decoder's whole-array functions of the
  ARGUMENTS, and the third result is the same host expression of the batch argument that the reference computes.
-/
import proofs.«151593_j45389214384421_1_alg».proof.Proof.KernelArray

set_option maxRecDepth 16384

noncomputable section

namespace Cert.KernelIdeal.RunValue

open Cert.KernelIdeal Cert.KernelIdeal.Gen Cert.KernelIdeal.Block Cert.KernelIdeal.ArrayValue Idealize.ShloMosaic Idealize.ShloMosaic.TcCoe
open Idealize.ShloMosaic.ValueIdx Cert.Decoder Idealize.SL.Sem
open Idealize.ShloMosaic.Pipeline (Dat Cfg Window)

variable (m : (ℓ : Loc nD τ sig) → Buf (Elt Ideal) ℓ) (ρ : Dev nD → PrngReg)

/-! ## The bias rows the region finds -/

/-- A vector recast as a one-row array, read along its row, is the vector. -/
theorem row_of_reshape {N : Nat} (x : (⟨1, ![N]⟩ : Shape).Idx → EReal) (h : (⟨1, ![N]⟩ : Shape).ShapeCasts ⟨2, ![1, N]⟩) :
    (fun q : Fin N => shapeCast ⟨2, ![1, N]⟩ x h (ix2 ⟨0, Nat.one_pos⟩ q)) = vec x := by
  funext q
  exact shapeCast_apply x h (ix2 ⟨0, Nat.one_pos⟩ q) (ix1 q)
    (by rw [Shape.rowMajor_val_one, Shape.rowMajor_val_two]; show q.val = 0 * N + q.val; omega)

theorem V_main_v0 (c : Dev nD) :
    (V m c main_v0 : Vec Ideal S1x48 .f32) = shapeCast S1x48 (m ((c : Thread nD τ).loc main_arg4)) shapeCasts_S48_S1x48 := by
  show StableHlo.after hostOps0 (fun b => m (c, b)) (Proc.devRef .tc main_v0) = _
  after_results
  rfl

theorem V_main_v1 (c : Dev nD) :
    (V m c main_v1 : Vec Ideal S1x256 .f32) = shapeCast S1x256 (m ((c : Thread nD τ).loc main_arg6)) shapeCasts_S256_S1x256 := by
  show StableHlo.after hostOps0 (fun b => m (c, b)) (Proc.devRef .tc main_v1) = _
  after_results
  rfl

theorem V_main_v2 (c : Dev nD) :
    (V m c main_v2 : Vec Ideal S1x128 .f32) = shapeCast S1x128 (m ((c : Thread nD τ).loc main_arg8)) shapeCasts_S128_S1x128 := by
  show StableHlo.after hostOps0 (fun b => m (c, b)) (Proc.devRef .tc main_v2) = _
  after_results
  rfl

theorem V_main_v3 (c : Dev nD) :
    (V m c main_v3 : Vec Ideal S1x32 .f32) = shapeCast S1x32 (m ((c : Thread nD τ).loc main_arg10)) shapeCasts_S32_S1x32 := by
  show StableHlo.after hostOps0 (fun b => m (c, b)) (Proc.devRef .tc main_v3) = _
  after_results
  rfl

/-! ## The reshaped results are the decoder's functions of the arguments -/

/-- The points result, rows and neighbours merged: output row i is row i / 16, neighbour i % 16. -/
theorem res_v5 (c : Dev nD) :
    shapeCast S800000x3 (ptsArr m c) shapeCasts_S50000x16x3_S800000x3
      = outPoints (m ((c : Thread nD τ).loc main_arg0)) (m ((c : Thread nD τ).loc main_arg1)) (m ((c : Thread nD τ).loc main_arg3)) (m ((c : Thread nD τ).loc main_arg4)) := by
  funext i
  obtain ⟨r, k, rfl⟩ : ∃ (r : Fin 800000) (k : Fin 3), i = ix2 r k := ⟨i 0, i 1, eq_ix2 i⟩
  refine (shapeCast_apply (ptsArr m c) shapeCasts_S50000x16x3_S800000x3 (ix2 r k) (ix3 (srcRow r) (srcNb r) k)
    (by rw [Shape.rowMajor_val_three, Shape.rowMajor_val_two]
        show (r.val / 16 * 16 + r.val % 16) * 3 + k.val = r.val * 3 + k.val
        omega)).trans ?_
  unfold ptsArr outPoints
  rw [V_main_arg0, V_main_arg1, V_main_arg3, V_main_v0,
    show (fun q : Fin 48 => shapeCast S1x48 (m ((c : Thread nD τ).loc main_arg4)) shapeCasts_S48_S1x48 (ix2 ⟨0, Nat.one_pos⟩ q))
      = vec (m ((c : Thread nD τ).loc main_arg4)) from row_of_reshape _ _]
  rfl

/-- The features result, rows and neighbours merged. -/
theorem res_v6 (c : Dev nD) :
    shapeCast S800000x32 (fcArr m c) shapeCasts_S50000x16x32_S800000x32
      = outFeat (m ((c : Thread nD τ).loc main_arg1)) (m ((c : Thread nD τ).loc main_arg3)) (m ((c : Thread nD τ).loc main_arg4)) (m ((c : Thread nD τ).loc main_arg5)) (m ((c : Thread nD τ).loc main_arg6))
          (m ((c : Thread nD τ).loc main_arg7)) (m ((c : Thread nD τ).loc main_arg8)) (m ((c : Thread nD τ).loc main_arg9)) (m ((c : Thread nD τ).loc main_arg10)) := by
  funext i
  obtain ⟨r, e, rfl⟩ : ∃ (r : Fin 800000) (e : Fin 32), i = ix2 r e := ⟨i 0, i 1, eq_ix2 i⟩
  refine (shapeCast_apply (fcArr m c) shapeCasts_S50000x16x32_S800000x32 (ix2 r e) (ix3 (srcRow r) (srcNb r) e)
    (by rw [Shape.rowMajor_val_three, Shape.rowMajor_val_two]
        show (r.val / 16 * 16 + r.val % 16) * 32 + e.val = r.val * 32 + e.val
        omega)).trans ?_
  unfold fcArr outFeat
  rw [V_main_arg1, V_main_arg3, V_main_arg5, V_main_arg7, V_main_arg9, V_main_v0, V_main_v1, V_main_v2, V_main_v3,
    show (fun q : Fin 48 => shapeCast S1x48 (m ((c : Thread nD τ).loc main_arg4)) shapeCasts_S48_S1x48 (ix2 ⟨0, Nat.one_pos⟩ q))
      = vec (m ((c : Thread nD τ).loc main_arg4)) from row_of_reshape _ _,
    show (fun q : Fin 256 => shapeCast S1x256 (m ((c : Thread nD τ).loc main_arg6)) shapeCasts_S256_S1x256 (ix2 ⟨0, Nat.one_pos⟩ q))
      = vec (m ((c : Thread nD τ).loc main_arg6)) from row_of_reshape _ _,
    show (fun q : Fin 128 => shapeCast S1x128 (m ((c : Thread nD τ).loc main_arg8)) shapeCasts_S128_S1x128 (ix2 ⟨0, Nat.one_pos⟩ q))
      = vec (m ((c : Thread nD τ).loc main_arg8)) from row_of_reshape _ _,
    show (fun q : Fin 32 => shapeCast S1x32 (m ((c : Thread nD τ).loc main_arg10)) shapeCasts_S32_S1x32 (ix2 ⟨0, Nat.one_pos⟩ q))
      = vec (m ((c : Thread nD τ).loc main_arg10)) from row_of_reshape _ _]
  rfl

/-! ## The operations after the region -/

theorem tail_v5 (c : Dev nD) :
    Pipeline.afterTail₀ cfgs (dats m) 0 (V0 m) [hostOps1] c main_v5
      = shapeCast S800000x3 (ptsArr m c) shapeCasts_S50000x16x3_S800000x3 := by
  have h := (Pipeline.withArrays_arr spec0 launch0.win.arr_inj c (V0 m c) (fun w => (dats m 0 c).arrAt w cfg0.N) 10).trans (final10 m c)
  unfold Pipeline.afterTail₀
  show StableHlo.after hostOps1 _ (Proc.devRef .tc main_v5) = _
  after_results
  funext i
  show shapeCast S800000x3 (Pipeline.withArrays spec0 c (V0 m c) (fun w => (dats m 0 c).arrAt w cfg0.N) (Proc.devRef .tc (Pipeline.arrRef spec0 10))) shapeCasts_S50000x16x3_S800000x3 i = _
  rw [h]

theorem tail_v6 (c : Dev nD) :
    Pipeline.afterTail₀ cfgs (dats m) 0 (V0 m) [hostOps1] c main_v6
      = shapeCast S800000x32 (fcArr m c) shapeCasts_S50000x16x32_S800000x32 := by
  have h := (Pipeline.withArrays_arr spec0 launch0.win.arr_inj c (V0 m c) (fun w => (dats m 0 c).arrAt w cfg0.N) 11).trans (final11 m c)
  unfold Pipeline.afterTail₀
  show StableHlo.after hostOps1 _ (Proc.devRef .tc main_v6) = _
  after_results
  funext i
  show shapeCast S800000x32 (Pipeline.withArrays spec0 c (V0 m c) (fun w => (dats m 0 c).arrAt w cfg0.N) (Proc.devRef .tc (Pipeline.arrRef spec0 11))) shapeCasts_S50000x16x32_S800000x32 i = _
  rw [h]

theorem tail_v8 (c : Dev nD) :
    Pipeline.afterTail₀ cfgs (dats m) 0 (V0 m) [hostOps1] c main_v8
      = shapeCast S800000 (broadcastInDim S50000x16 ![0] bcast_S50000_S50000x16_0 (m ((c : Thread nD τ).loc main_arg2))) shapeCasts_S50000x16_S800000 := by
  have h : (Pipeline.withArrays spec0 c (V0 m c) (fun w => (dats m 0 c).arrAt w cfg0.N) (Proc.devRef .tc main_arg2)) = m ((c : Thread nD τ).loc main_arg2) :=
    (Pipeline.withArrays_of_ne _ c (V0 m c) _ main_arg2 (by exact (by decide : ∀ w, Pipeline.arrRef spec0 w ≠ main_arg2))).trans (V_main_arg2 m c)
  unfold Pipeline.afterTail₀
  show StableHlo.after hostOps1 _ (Proc.devRef .tc main_v8) = _
  after_results
  funext i
  show shapeCast S800000 (broadcastInDim S50000x16 ![0] bcast_S50000_S50000x16_0 (Pipeline.withArrays spec0 c (V0 m c) (fun w => (dats m 0 c).arrAt w cfg0.N) (Proc.devRef .tc main_arg2))) shapeCasts_S50000x16_S800000 i = _
  rw [h]

/-! ## The run -/

/-- Every weakly fair execution of the idealized kernel program terminates with the output points and features at
    the decoder's functions of the arguments, the repeated batch vector at its host expression, and the arguments
    unchanged. -/
theorem run : θ_run defs (onTc (τ := τ) (main (F := Ideal))) ⟨m, fun _ => 0, ρ⟩ (fun r => ∀ c : Dev nD,
      r.2.mem ((c.tc : Thread nD τ).loc main_v5) = outPoints (m ((c.tc : Thread nD τ).loc main_arg0)) (m ((c.tc : Thread nD τ).loc main_arg1)) (m ((c.tc : Thread nD τ).loc main_arg3)) (m ((c.tc : Thread nD τ).loc main_arg4))
      ∧ r.2.mem ((c.tc : Thread nD τ).loc main_v6) = outFeat (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_v8) = shapeCast S800000 (broadcastInDim S50000x16 ![0] bcast_S50000_S50000x16_0 (m ((c.tc : Thread nD τ).loc main_arg2))) shapeCasts_S50000x16_S800000
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨
      ((h c).2 main_v5 (Pipeline.mem_restRefs_of main_v5 (by decide) (by decide))).trans ((tail_v5 m c).trans (res_v5 m c)),
      ((h c).2 main_v6 (Pipeline.mem_restRefs_of main_v6 (by decide) (by decide))).trans ((tail_v6 m c).trans (res_v6 m c)),
      ((h c).2 main_v8 (Pipeline.mem_restRefs_of main_v8 (by decide) (by decide))).trans (tail_v8 m c),
      ((h c).1 1).trans (((dats m 0 c).arrAt_in 1 rfl _).trans ((A_eq m c 1).trans (V_main_arg0 m c))),
      ((h c).1 0).trans (((dats m 0 c).arrAt_in 0 rfl _).trans ((A_eq m c 0).trans (V_main_arg1 m c))),
      (((h c).2 main_arg2 (Pipeline.mem_restRefs_of main_arg2 (by decide) (by decide))).trans (W_main_arg2 m (dats m) c)),
      ((h c).1 2).trans (((dats m 0 c).arrAt_in 2 rfl _).trans ((A_eq m c 2).trans (V_main_arg3 m c))),
      (((h c).2 main_arg4 (Pipeline.mem_restRefs_of main_arg4 (by decide) (by decide))).trans (W_main_arg4 m (dats m) c)),
      ((h c).1 4).trans (((dats m 0 c).arrAt_in 4 rfl _).trans ((A_eq m c 4).trans (V_main_arg5 m c))),
      (((h c).2 main_arg6 (Pipeline.mem_restRefs_of main_arg6 (by decide) (by decide))).trans (W_main_arg6 m (dats m) c)),
      ((h c).1 6).trans (((dats m 0 c).arrAt_in 6 rfl _).trans ((A_eq m c 6).trans (V_main_arg7 m c))),
      (((h c).2 main_arg8 (Pipeline.mem_restRefs_of main_arg8 (by decide) (by decide))).trans (W_main_arg8 m (dats m) c)),
      ((h c).1 8).trans (((dats m 0 c).arrAt_in 8 rfl _).trans ((A_eq m c 8).trans (V_main_arg9 m c))),
      (((h c).2 main_arg10 (Pipeline.mem_restRefs_of main_arg10 (by decide) (by decide))).trans (W_main_arg10 m (dats m) c))⟩)
    (run_main m ρ)

end Cert.KernelIdeal.RunValue

end
-- ==== Proof.lean ====
/-
  Kernel and reference of the neighbourhood decoder compute the same three arrays over the extended reals.

  Each of the 50000 input rows yields sixteen output rows. From the row's first 32 features a linear map makes 48
  offsets, sixteen triples; neighbour j's output point is the row's anchor plus a quarter of triple j, and its output
  features are a three-layer perceptron of triple j followed by the row's last 128 features. The reference builds the
  131-column input for all 800000 output rows and multiplies it by the first-layer weights at once. The kernel, tile by
  tile of 400 rows, multiplies the 128 shared columns once per row, adds the bias, and adds the three-column product
  per neighbour. The two first layers are the same 132 summands grouped differently: a sum over 131 columns split at
  column 3, and one exchange of two summands. Both hold in every commutative monoid, so the equality holds on all
  extended reals and the finiteness of the inputs is never used. Everything after the first layer is the same
  operations in the same order on both sides, and the third result, the batch vector repeated sixteen times, is the
  same expression of the argument in both programs.

  Spec states the decoder row by row and proves the regrouping. KernelBlock, KernelArray and KernelRun read the
  kernel's result arrays off its run as the decoder's functions of the arguments; RefValue reads the reference's
  results as the same functions. The three frames are the programs' runs with the results forgotten.
-/
import proofs.«151593_j45389214384421_1_alg».proof.Defs
import proofs.«151593_j45389214384421_1_alg».proof.Proof.Gen.Kernel
import proofs.«151593_j45389214384421_1_alg».proof.Proof.Gen.Kernel.Skeleton
import proofs.«151593_j45389214384421_1_alg».proof.Proof.Gen.Kernel.Launch
import proofs.«151593_j45389214384421_1_alg».proof.Proof.Gen.Kernel.Points
import proofs.«151593_j45389214384421_1_alg».proof.Proof.Gen.Kernel.Frame
import proofs.«151593_j45389214384421_1_alg».proof.Proof.Gen.KernelIdeal
import proofs.«151593_j45389214384421_1_alg».proof.Proof.Gen.KernelIdeal.Skeleton
import proofs.«151593_j45389214384421_1_alg».proof.Proof.Gen.KernelIdeal.Launch
import proofs.«151593_j45389214384421_1_alg».proof.Proof.Gen.KernelIdeal.Points
import proofs.«151593_j45389214384421_1_alg».proof.Proof.Gen.KernelIdeal.Frame
import proofs.«151593_j45389214384421_1_alg».proof.Proof.Gen.ReferenceIdeal
import proofs.«151593_j45389214384421_1_alg».proof.Proof.Gen.ReferenceIdeal.Run
import proofs.«151593_j45389214384421_1_alg».proof.Proof.Gen.ReferenceIdeal.Read
import proofs.«151593_j45389214384421_1_alg».proof.Proof.Gen.Pre_finite_inputs
import proofs.«151593_j45389214384421_1_alg».proof.Proof.RefValue
import proofs.«151593_j45389214384421_1_alg».proof.Proof.KernelRun
import Idealize.ShloMosaic.Adequacy
import Idealize.ShloMosaic.Init

noncomputable section

namespace Cert.Proof

open Idealize.ShloMosaic Idealize.SL.Sem

/-- The word-level kernel program runs and keeps its arguments. -/
theorem frame_k : Cert.frame_Kernel := fun m ρ _ => Cert.Kernel.Gen.frame m ρ

/-- The idealized kernel program runs and keeps its arguments. -/
theorem frame_ki : Cert.frame_KernelIdeal := fun m ρ _ => Cert.KernelIdeal.Gen.frame m ρ

/-- The idealized reference runs and keeps its arguments: its run with the three results forgotten. -/
theorem frame_ri : Cert.frame_ReferenceIdeal := fun m ρ _ =>
  (θ_run Cert.ReferenceIdeal.defs _ _).mono (fun _ h c => (h c).2.2.2) (Cert.ReferenceIdeal.Value.run (F := Ideal) m ρ)

/-- The ideal pass rewrote nothing: there is nothing to preserve. -/
theorem preserves : Cert.preserves_Kernel_KernelIdeal := trivial

/-- From memories that agree on the arguments both idealized programs end with the output points and features at the
    decoder's functions of the arguments and the batch vector repeated sixteen times. -/
theorem algebraic : Cert.algebraic_KernelIdeal_ReferenceIdeal := by
  intro m ρ m' ρ' _ hagree
  refine ⟨_, _, _, Cert.KernelIdeal.RunValue.run m ρ, ?_⟩
  refine (θ_run Cert.ReferenceIdeal.defs _ _).mono (fun _ h c => ?_) (Cert.ReferenceIdeal.Value.run (F := Ideal) m' ρ')
  obtain ⟨a0, a1, a2, a3, a4, a5, a6, a7, a8, a9, a10⟩ := hagree c
  refine ⟨?_, ?_, ?_, (h c).2.2.2⟩
  · rw [(h c).1, Cert.ReferenceIdeal.Read.val_main_v31_eq, Cert.ReferenceIdeal.RefValue.points_eq, a0, a1, a3, a4]
  · rw [(h c).2.1, Cert.ReferenceIdeal.Read.val_main_v26_eq, Cert.ReferenceIdeal.RefValue.feat_eq, a1, a3, a4, a5, a6, a7, a8, a9, a10]
  · exact (h c).2.2.1.trans (by rw [a2] <;> rfl)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
